-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg3 : IVec S1600000 32) (main_v13 : IVec S_ 1) (main_v15 : IVec S1600000 1) (main_c_5 : IVec S_ 1) : IVec S_ 1 :=
  let main_v16 : IVec S_ 1 := (fun x v => Host.reduce IntOp.andi x v reducesTo_S1600000_S_d0 h_S_) main_v15 main_c_5
  let main_v17 : IVec S_ 1 := andi main_v13 main_v16
  let main_c_6 : IVec S_ 32 := constantI S_ 32 100000#32
  let main_v18 : IVec S1600000 32 := broadcastInDim S1600000 ![] bcast_S_S1600000 main_c_6
  let main_v19 : IVec S1600000 1 := cmpi .slt main_arg3 main_v18
  let main_c_7 : IVec S_ 1 := constantI S_ 1 1#1
  let main_v20 : IVec S_ 1 := (fun x v => Host.reduce IntOp.andi x v reducesTo_S1600000_S_d0 h_S_) main_v19 main_c_7
  let main_v21 : IVec S_ 1 := andi main_v17 main_v20
  main_v21

def fn {F : FTy → Type} [FloatOps F] (main_arg0 : FVec F S100000x128 .f32) (main_arg1 : FVec F S128x128 .f32) (main_arg2 : FVec F S128 .f32) (main_arg3 : IVec S1600000 32) (main_arg4 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_c_4 : IVec S_ 32 := constantI S_ 32 0#32
  let main_v14 : IVec S1600000 32 := broadcastInDim S1600000 ![] bcast_S_S1600000 main_c_4
  let main_v15 : IVec S1600000 1 := cmpi .sge main_arg3 main_v14
  let main_c_5 : IVec S_ 1 := constantI S_ 1 1#1
  fn_part1 (F := F) main_arg3 main_v13 main_v15 main_c_5
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S1x128 : Shape := ⟨2, ![1, 128]⟩
abbrev S1000x128 : Shape := ⟨2, ![1000, 128]⟩
abbrev S2000x128 : Shape := ⟨2, ![2000, 128]⟩
abbrev S2000 : Shape := ⟨1, ![2000]⟩
abbrev S2000x1 : Shape := ⟨2, ![2000, 1]⟩

abbrev nBuf : Space → Nat
  | .hbm => 36
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1, .i32⟩
  | .hbm, ⟨14, _⟩ => ⟨S_, .i32⟩
  | .hbm, ⟨15, _⟩ => ⟨S1600000x1, .i32⟩
  | .hbm, ⟨16, _⟩ => ⟨S1600000x1, .i1⟩
  | .hbm, ⟨17, _⟩ => ⟨S1x1, .i32⟩
  | .hbm, ⟨18, _⟩ => ⟨S1600000x1, .i32⟩
  | .hbm, ⟨19, _⟩ => ⟨S1600000x1, .i1⟩
  | .hbm, ⟨20, _⟩ => ⟨S1600000x1, .i1⟩
  | .hbm, ⟨21, _⟩ => ⟨S_, .i1⟩
  | .hbm, ⟨22, _⟩ => ⟨S1600000, .i1⟩
  | .hbm, ⟨23, _⟩ => ⟨S1600000x128, .f32⟩
  | .hbm, ⟨24, _⟩ => ⟨S1600000x128, .i1⟩
  | .hbm, ⟨25, _⟩ => ⟨S_, .f32⟩
  | .hbm, ⟨26, _⟩ => ⟨S1600000x128, .f32⟩
  | .hbm, ⟨27, _⟩ => ⟨S1600000x128, .f32⟩
  | .hbm, ⟨28, _⟩ => ⟨S_, .f32⟩
  | .hbm, ⟨29, _⟩ => ⟨S100000x128, .f32⟩
  | .hbm, ⟨30, _⟩ => ⟨S1600000x1, .i32⟩
  | .hbm, ⟨31, _⟩ => ⟨S100000x128, .f32⟩
  | .hbm, ⟨32, _⟩ => ⟨S1x128, .f32⟩
  | .hbm, ⟨33, _⟩ => ⟨S128x128, .f32⟩
  | .hbm, ⟨34, _⟩ => ⟨S1x128, .f32⟩
  | .hbm, ⟨35, _⟩ => ⟨S100000x128, .f32⟩
  | .local _ .vmem, ⟨0, _⟩ => ⟨S1000x128, .f32⟩
  | .local _ .vmem, ⟨1, _⟩ => ⟨S1000x128, .f32⟩
  | .local _ .vmem, ⟨2, _⟩ => ⟨S1x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v0 : Ref sig .tc := ⟨.hbm, 27, rfl⟩
abbrev main_cst : Ref sig .tc := ⟨.hbm, 28, rfl⟩
abbrev main_v1 : Ref sig .tc := ⟨.hbm, 29, rfl⟩
abbrev main_v2 : Ref sig .tc := ⟨.hbm, 30, rfl⟩
abbrev main_v3 : Ref sig .tc := ⟨.hbm, 31, rfl⟩
abbrev main_v4 : Ref sig .tc := ⟨.hbm, 32, rfl⟩
abbrev main_v5 : Ref sig .tc := ⟨.hbm, 33, rfl⟩
abbrev main_v6 : Ref sig .tc := ⟨.hbm, 34, rfl⟩
abbrev main_v7 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg2_0 : Ref sig .tc := ⟨.vmem, 7, rfl⟩
abbrev cc1_stg3_0 : Ref sig .tc := ⟨.vmem, 8, rfl⟩
abbrev cc1_stg4_0 : Ref sig .tc := ⟨.vmem, 9, rfl⟩
abbrev cc1_stg4_1 : Ref sig .tc := ⟨.vmem, 10, rfl⟩
abbrev cc0_sem0_0 : DmaSem sig := 0
abbrev cc0_sem0_1 : DmaSem sig := 1
abbrev cc0_sem1_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem3_0 : DmaSem sig := 7
abbrev cc1_sem4_0 : DmaSem sig := 8
abbrev cc1_sem4_1 : DmaSem sig := 9

abbrev nD : Nat := 1
abbrev τ : Topo := Topo.v7x

variable {F : FTy → Type} [FloatOps F]

abbrev grid0 : Pipeline.Grid := ⟨1, ![100], ![false]⟩

def k0_cond2 (i : grid0.Coords) : BitVec 1 :=
  let arg0 : BitVec 32 := BitVec.ofNat 32 (i 0).val
  let c99_i32 : BitVec 32 := 99#32
  let v11 : BitVec 1 := Scalar.cmpi .eq arg0 c99_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S1000x128_S1000x128_0_0 : ∀ a, (![0, 0] : Fin 2 → Nat) a + S1000x128.size a ≤ S1000x128.size a
  h_S1000x128 : 0 < S1000x128.numel
  reduces_S1000x128_S128 : S1000x128.Reduces [0] S128
  shapeCasts_S128_S1x128 : S128.ShapeCasts S1x128
  transposes_S128x128_S128x128_1_0 : S128x128.Transposes [1, 0] S128x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x128.size a ≤ S100000x128.size a
  hwx0_0 : ∀ i : grid0.Coords, EltTy.bits .f32 = 32 ∨ (Rect.block (s := S100000x128) S1000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x128.size a
  hwx0_1 : ∀ i : grid0.Coords, EltTy.bits .f32 = 32 ∨ (Rect.block (s := S1x128) S1x128.size (cc0_transform_1 i) (hinb0_1 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S100000x128.size a
  hwx1_4 : ∀ i : grid1.Coords, EltTy.bits .f32 = 32 ∨ (Rect.block (s := S100000x128) S2000x128.size (cc1_transform_4 i) (hinb1_4 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf

abbrev win0_0 : Pipeline.Window sig grid0 :=
  Pipeline.Window.ofSpec (Memref.whole main_arg0) S1000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v4) S1x128.size cc0_transform_1 reads0_1 true true 1 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

abbrev win1_0 : Pipeline.Window sig grid1 :=
  Pipeline.Window.ofSpec (Memref.whole main_v3) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v6) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v7) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000 : Shape := ⟨1, ![100000]⟩
abbrev S100000x1 : Shape := ⟨2, ![100000, 1]⟩

abbrev nBuf : Space → Nat
  | .hbm => 38
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S1600000, .i32⟩
  | .hbm, ⟨4, _⟩ => ⟨S1600000, .i32⟩
  | .hbm, ⟨5, _⟩ => ⟨S_, .i32⟩
  | .hbm, ⟨6, _⟩ => ⟨S1600000, .i32⟩
  | .hbm, ⟨7, _⟩ => ⟨S1600000, .i1⟩
  | .hbm, ⟨8, _⟩ => ⟨S_, .i32⟩
  | .hbm, ⟨9, _⟩ => ⟨S1600000, .i32⟩
  | .hbm, ⟨10, _⟩ => ⟨S1600000, .i32⟩
  | .hbm, ⟨11, _⟩ => ⟨S1600000, .i32⟩
  | .hbm, ⟨12, _⟩ => ⟨S1600000x1, .i32⟩
  | .hbm, ⟨13, _⟩ => ⟨S1600000x128, .f32⟩
  | .hbm, ⟨14, _⟩ => ⟨S_, .f32⟩
  | .hbm, ⟨15, _⟩ => ⟨S100000x128, .f32⟩
  | .hbm, ⟨16, _⟩ => ⟨S1600000x1, .i32⟩
  | .hbm, ⟨17, _⟩ => ⟨S100000x128, .f32⟩
  | .hbm, ⟨18, _⟩ => ⟨S_, .f32⟩
  | .hbm, ⟨19, _⟩ => ⟨S128, .f32⟩
  | .hbm, ⟨20, _⟩ => ⟨S1x128, .f32⟩
  | .hbm, ⟨21, _⟩ => ⟨S100000x128, .f32⟩
  | .hbm, ⟨22, _⟩ => ⟨S100000x128, .f32⟩
  | .hbm, ⟨23, _⟩ => ⟨S100000x128, .f32⟩
  | .hbm, ⟨24, _⟩ => ⟨S_, .f32⟩
  | .hbm, ⟨25, _⟩ => ⟨S100000, .f32⟩
  | .hbm, ⟨26, _⟩ => ⟨S100000x1, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S128x128, .f32⟩
  | .hbm, ⟨34, _⟩ => ⟨S100000x128, .f32⟩
  | .hbm, ⟨35, _⟩ => ⟨S1x128, .f32⟩
  | .hbm, ⟨36, _⟩ => ⟨S100000x128, .f32⟩
  | .hbm, ⟨37, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  reducesTo_S100000x128_S128_d0 : S100000x128.ReducesTo [0] S128
  h_S_ : 0 < S_.numel
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S100000_d1 : S100000x128.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.KernelIdeal.TotalRegion.lean ====
/-
  The first kernel region (the column-total kernel, 100 grid points in order).

  The kernel keeps a one-row accumulator in a scratch buffer.  At the first point it clears the accumulator; at every
  point it adds to it the column sums of the 1000 rows of the features it was handed; at the last point it copies the
  accumulator to the output window, which is idle (not stored, not written back) at every other point.  So after
  point n the scratch holds the body's update term applied n + 1 times, starting from the cleared row, and the
  output's buffer holds that at the last point.
-/
import proofs.«419768_j38388417692550_2_alg».proof.Proof.Gen.KernelIdeal.Launch
import proofs.«419768_j38388417692550_2_alg».proof.Proof.Gen.KernelIdeal.Skeleton
import proofs.«419768_j38388417692550_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 whole-buffer rectangle, as a function. -/
theorem off2_zero' : (![0, 0] : Fin 2 → ℕ) = fun _ => 0 := by
  funext a; fin_cases a <;> rfl

/-- The body clears the accumulator exactly when this holds of the grid coordinates: at the first point. -/
abbrev cond1 (i : grid0.Coords) : Prop := (Scalar.cmpi .ne (Scalar.extui (Scalar.cmpi .eq (BitVec.ofNat 32 (i 0).val) 0#32)) 0#32) = 1#1
theorem hcond1 : ∀ t : Fin cfg0.N, cond1 (grid0.coords t) ↔ t.val = 0 :=
  (by decide +kernel : ∀ t : Fin grid0.N, cond1 (grid0.coords t) ↔ t.val = 0)
/-- The body copies the accumulator out exactly when this holds: at the last point. -/
abbrev cond2 (i : grid0.Coords) : Prop := k0_cond2 i = 1#1
theorem hcond2 : ∀ t : Fin cfg0.N, cond2 (grid0.coords t) ↔ t.val = 99 :=
  (by decide +kernel : ∀ t : Fin grid0.N, cond2 (grid0.coords t) ↔ t.val = 99)

/-- The input window is never idle; the output window is idle, and not written back, away from the last point. -/
theorem liveAt0_0 : ∀ t : Fin cfg0.N, cfg0.idle 0 (grid0.coords t) = false := by decide +kernel
theorem idleAt0_1 : ∀ t : Fin cfg0.N, ¬cond2 (grid0.coords t) → cfg0.idle 1 (grid0.coords t) = true := by decide +kernel
theorem noFlush0_1 : ∀ t : Fin cfg0.N, ¬cond2 (grid0.coords t) → (cfg0.win 1).flush t = false := by decide +kernel
theorem liveAt0_1 : ∀ t : Fin cfg0.N, cond2 (grid0.coords t) → cfg0.idle 1 (grid0.coords t) = false := by decide +kernel

/-- The accumulator's scratch buffer, whole. -/
abbrev scM : Memref sig .tc .vmem S1x128 .f32 := Memref.whole cc0_scratch0

set_option maxHeartbeats 1000000 in
/-- A point strictly between the first and the last: the accumulator s becomes the update term of s and the block. -/
theorem kernel_mid (c : Dev nD) (E : Set ℕ) (i : grid0.Coords)
    (arg1 : Memref sig .tc .vmem S1000x128 .f32) (harg1 : arg1.IsWhole) (arg2 : Memref sig .tc .vmem S1x128 .f32) (harg2 : arg2.IsWhole)
    (arg3 : Memref sig .tc .vmem S1x128 .f32) (harg3 : arg3.IsWhole) (hc1 : ¬cond1 i) (hc2 : ¬cond2 i)
    (x0 : Vec F S1000x128 .f32) (xi1 s : Vec F S1x128 .f32) (K : PUnit → sProp 𝕄) :
    iprop(owns (c : Thread nD τ) arg1 fullShare x0 ∗ owns (c : Thread nD τ) arg2 fullShare xi1 ∗ owns (c : Thread nD τ) arg3 fullShare s
        ∗ (iprop(owns (c : Thread nD τ) arg1 fullShare x0 ∗ owns (c : Thread nD τ) arg2 fullShare xi1
            ∗ owns (c : Thread nD τ) arg3 fullShare (k0_pay2 s x0)) -∗ K ⟨⟩))
      ⊢ wp frame (wpE (defs₀ (F := F)) Variants.none c none) E (cc0__total_kernel i arg1 harg1 arg2 harg2 arg3 harg3) K := by
  simp only [cc0__total_kernel_eq_skeleton]; unfold cc0__total_kernel_skel
  unfold owns
  iintro ⟨⟨%f0, %hf0, H0⟩, ⟨%f1, %hf1, H1⟩, ⟨%f2, %hf2, H2⟩, Hk⟩
  subst hf0; subst hf1; subst hf2
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (fun y => ⟨_, List.mem_singleton_self _, View.mem_set_unit_zero off2_zero' inb_S1x128_S1x128_0_0 y⟩)).trans ?_
  rw [View.canon_unit_zero off2_zero']
  simp only [View.readAt_eq_ld, View.ld_unit_zero (S := S1x128) off2_zero', View.ld_unit_zero (S := S1000x128) off2_zero']

set_option maxHeartbeats 1000000 in
/-- The first point: whatever the scratch held, it ends at the update term of the cleared row and the block. -/
theorem kernel_first (c : Dev nD) (E : Set ℕ) (i : grid0.Coords)
    (arg1 : Memref sig .tc .vmem S1000x128 .f32) (harg1 : arg1.IsWhole) (arg2 : Memref sig .tc .vmem S1x128 .f32) (harg2 : arg2.IsWhole)
    (arg3 : Memref sig .tc .vmem S1x128 .f32) (harg3 : arg3.IsWhole) (hc1 : cond1 i) (hc2 : ¬cond2 i)
    (x0 : Vec F S1000x128 .f32) (xi1 : Vec F S1x128 .f32) (K : PUnit → sProp 𝕄) :
    iprop(owns (c : Thread nD τ) arg1 fullShare x0 ∗ owns (c : Thread nD τ) arg2 fullShare xi1 ∗ (∃ d, owns (c : Thread nD τ) arg3 fullShare d)
        ∗ (iprop(owns (c : Thread nD τ) arg1 fullShare x0 ∗ owns (c : Thread nD τ) arg2 fullShare xi1
            ∗ owns (c : Thread nD τ) arg3 fullShare (k0_pay2 (k0_pay1 (F := F)) x0)) -∗ K ⟨⟩))
      ⊢ wp frame (wpE (defs₀ (F := F)) Variants.none c none) E (cc0__total_kernel i arg1 harg1 arg2 harg2 arg3 harg3) K := by
  simp only [cc0__total_kernel_eq_skeleton]; unfold cc0__total_kernel_skel
  unfold owns
  iintro ⟨⟨%f0, %hf0, H0⟩, ⟨%f1, %hf1, H1⟩, ⟨%d2, %f2, -, H2⟩, Hk⟩
  subst hf0; subst hf1
  sl_exec (disch := first | exact hc1 | exact hc2)
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  sl_unfold_words
  refine (View.read_writes_eq_canon _ _ _ (fun y => ⟨_, List.mem_cons_self, View.mem_set_unit_zero off2_zero' inb_S1x128_S1x128_0_0 y⟩)).trans ?_
  rw [View.canon_cons_unit_zero off2_zero']
  simp only [View.readCov_unit_zero (S := S1x128) _ off2_zero', View.readAt_eq_ld, View.ld_unit_zero (S := S1x128) off2_zero', View.ld_unit_zero (S := S1000x128) off2_zero']

set_option maxHeartbeats 1000000 in
/-- The last point: the accumulator is updated and copied to the output window's buffer. -/
theorem kernel_last (c : Dev nD) (E : Set ℕ) (i : grid0.Coords)
    (arg1 : Memref sig .tc .vmem S1000x128 .f32) (harg1 : arg1.IsWhole) (arg2 : Memref sig .tc .vmem S1x128 .f32) (harg2 : arg2.IsWhole)
    (arg3 : Memref sig .tc .vmem S1x128 .f32) (harg3 : arg3.IsWhole) (hc1 : ¬cond1 i) (hc2 : cond2 i)
    (x0 : Vec F S1000x128 .f32) (s : Vec F S1x128 .f32) (K : PUnit → sProp 𝕄) :
    iprop(owns (c : Thread nD τ) arg1 fullShare x0 ∗ (∃ d, owns (c : Thread nD τ) arg2 fullShare d) ∗ owns (c : Thread nD τ) arg3 fullShare s
        ∗ (iprop(owns (c : Thread nD τ) arg1 fullShare x0 ∗ owns (c : Thread nD τ) arg2 fullShare (k0_pay2 s x0)
            ∗ owns (c : Thread nD τ) arg3 fullShare (k0_pay2 s x0)) -∗ K ⟨⟩))
      ⊢ wp frame (wpE (defs₀ (F := F)) Variants.none c none) E (cc0__total_kernel i arg1 harg1 arg2 harg2 arg3 harg3) K := by
  simp only [cc0__total_kernel_eq_skeleton]; unfold cc0__total_kernel_skel
  unfold owns
  iintro ⟨⟨%f0, %hf0, H0⟩, ⟨%d1, %f1, -, H1⟩, ⟨%f2, %hf2, H2⟩, Hk⟩
  subst hf0; subst hf2
  sl_exec (disch := first | exact hc1 | exact hc2)
  sl_step
  iapply Hk
  isplitl [H0]
  · iexists f0; isplitr; · ipureintro; rfl
    iexact H0
  isplitl [H1]
  · iexists _; isplitr
    swap; · iexact H1
    ipureintro
    sl_unfold_words
    refine (View.read_writes_eq_canon _ _ _ (fun y => ⟨_, List.mem_cons_self, View.mem_set_unit_zero off2_zero' inb_S1x128_S1x128_0_0 y⟩)).trans ?_
    rw [View.canon_cons_unit_zero off2_zero']
    simp only [View.readCov_unit_zero (S := S1x128) _ off2_zero', View.readAt_eq_ld, View.ld_unit_zero (S := S1x128) off2_zero', View.ld_unit_zero (S := S1000x128) off2_zero']
  iexists _; isplitr
  swap; · iexact H2
  ipureintro
  sl_unfold_words
  refine (View.read_writes_eq_canon _ _ _ (fun y => ⟨_, List.mem_cons_self, View.mem_set_unit_zero off2_zero' inb_S1x128_S1x128_0_0 y⟩)).trans ?_
  rw [View.canon_cons_unit_zero off2_zero']
  simp only [View.readCov_unit_zero (S := S1x128) _ off2_zero', View.readAt_eq_ld, View.ld_unit_zero (S := S1x128) off2_zero', View.ld_unit_zero (S := S1000x128) off2_zero']

section Total
variable (V : (c : Dev nD) → (b : Ref sig .tc) → Buf (Elt F) ((c : Thread nD τ).loc b))

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The input window's current staging buffer holds its block at every point, for any proof data over these arrays
    whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- THE ACCUMULATION: what the scratch holds after the body at point n — the update term of the cleared row and the
    first block, then of what the point before left and this point's block. -/
def acc0 (c : Dev nD) : (n : ℕ) → n < cfg0.N → Vec F S1x128 .f32
  | 0, h => k0_pay2 (k0_pay1 (F := F)) (iblk0 V c 0 ⟨0, h⟩)
  | n + 1, h => k0_pay2 (acc0 c n (Nat.lt_of_succ_lt h)) (iblk0 V c 0 ⟨n + 1, h⟩)

theorem acc0_zero (c : Dev nD) (t : Fin cfg0.N) (h : t.val = 0) :
    acc0 V c t.val t.isLt = k0_pay2 (k0_pay1 (F := F)) (iblk0 V c 0 t) := by
  obtain ⟨n, hn⟩ := t
  cases n with
  | zero => rfl
  | succ n => exact absurd h (Nat.succ_ne_zero n)

theorem acc0_pos (c : Dev nD) (t : Fin cfg0.N) (h : t.val ≠ 0) :
    acc0 V c t.val t.isLt = k0_pay2 (acc0 V c (t.val - 1) (Nat.lt_of_le_of_lt (Nat.sub_le _ _) t.isLt)) (iblk0 V c 0 t) := by
  obtain ⟨n, hn⟩ := t
  cases n with
  | zero => exact absurd rfl h
  | succ n => rfl

/-- The core's scoped buffers that are neither a staging buffer of this region nor its scratch (the other region's
    staging buffers), each whole at some contents. -/
def restB (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f))

/-- The region invariant before position n: before the first point the scratch at anything; afterwards at what the
    point before left in it; beside it the other scoped buffers and the generator register at some state. -/
def Phi0 (c : Dev nD) : (n : ℕ) → n ≤ cfg0.N → sProp 𝕄
  | 0, _ => iprop((∃ d, owns (c : Thread nD τ) scM fullShare d) ∗ restB c ∗ (∃ r, prngReg c r))
  | n + 1, hn => iprop(owns (c : Thread nD τ) scM fullShare (acc0 V c n hn) ∗ restB c ∗ (∃ r, prngReg c r))

theorem Phi0_zero (c : Dev nD) (n : ℕ) (h : n ≤ cfg0.N) (hz : n = 0) :
    Phi0 V c n h = iprop((∃ d, owns (c : Thread nD τ) scM fullShare d) ∗ restB c ∗ (∃ r, prngReg c r)) := by
  subst hz; rfl
theorem Phi0_succ (c : Dev nD) (n : ℕ) (hn : n < cfg0.N) :
    Phi0 V c (n + 1) hn = iprop(owns (c : Thread nD τ) scM fullShare (acc0 V c n hn) ∗ restB c ∗ (∃ r, prngReg c r)) := rfl
theorem Phi0_pos (c : Dev nD) (n : ℕ) (h : n ≤ cfg0.N) (hz : n ≠ 0) :
    Phi0 V c n h = iprop(owns (c : Thread nD τ) scM fullShare (acc0 V c (n - 1) (by omega)) ∗ restB c ∗ (∃ r, prngReg c r)) := by
  cases n with
  | zero => exact absurd rfl hz
  | succ n => rfl

/-- The proof data of the first pipeline on core c: the arrays as the region finds them; after the body the input's
    buffer at its block and the output's at the accumulator (read only at the last point: elsewhere the window is
    idle); the invariant above; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => acc0 V c t.val t.isLt
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem Phi0_castSucc (c : Dev nD) (t : Fin cfg0.N) :
    (dat0 V c).Φ t.castSucc = Phi0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = acc0 V c t.val t.isLt := by dsimp only [dat0]
theorem before0_0 (c : Dev nD) (t : Fin cfg0.N) (d) : (dat0 V c).before 0 t d = iblk0 V c 0 t :=
  before0_0_of V (dat0 V c) (A_eq0 V c 0) (after0_0 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t)

set_option maxHeartbeats 4000000 in
/-- The body at any point, by the point's place in the grid: first, last, or between. The invariant hands the body
    the scratch at what the point before left (at anything at the first point) and takes it back at this point's
    accumulation; the idle output's buffer is handed back as found. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).owesAt () t.succ = (dat0 V c).owesAt () t.castSucc from rfl]
  rw [show (dat0 V c).Φ t.succ = Phi0 V c (t.val + 1) t.isLt from rfl, Phi0_succ]
  rw [show (dat0 V c).leavesExact 0 t = owns (c : Thread nD τ) (st0_0 t) fullShare ((dat0 V c).after 0 t) from by
    unfold Dat.leavesExact; rw [liveAt0_0 t], after0_0]
  have hN : t.val < 100 := lt_of_lt_of_eq t.isLt (show cfg0.N = 100 from N_0)
  by_cases hl : t.val = 99
  · have h1 : ¬cond1 (grid0.coords t) := fun h => by have := (hcond1 t).mp h; omega
    have h2 : cond2 (grid0.coords t) := (hcond2 t).mpr hl
    have hz : t.val ≠ 0 := by omega
    rw [show (dat0 V c).leavesExact 1 t = owns (c : Thread nD τ) (st0_1 t) fullShare ((dat0 V c).after 1 t) from by
      unfold Dat.leavesExact; rw [liveAt0_1 t h2], after0_1]
    rw [acc0_pos V c t hz, Phi0_castSucc V c t, Phi0_pos V c _ _ hz]
    iintro ⟨⟨HS, Hr, Hg⟩, Ho, ⟨%d0, H0⟩, ⟨%d1, H1⟩⟩
    iapply (kernel_last c Set.univ (grid0.coords t) _ _ _ _ _ _ h1 h2 (iblk0 V c 0 t) _ _)
    isplitl [H0]; · iexact H0
    isplitl [H1]; · iexists _; iexact H1
    isplitl [HS]; · iexact HS
    iintro ⟨H0, H1, HS⟩
    isplitl [HS Hr Hg]
    · isplitl [HS]; · iexact HS
      isplitl [Hr]; · iexact Hr
      iexact Hg
    isplitl [Ho]; · iexact Ho
    isplitl [H0]; · iexact H0
    iexact H1
  · have h2 : ¬cond2 (grid0.coords t) := fun h => hl ((hcond2 t).mp h)
    rw [Dat.leavesExact_idle (dat0 V c) 1 t (idleAt0_1 t h2) (noFlush0_1 t h2)]
    by_cases hz : t.val = 0
    · have h1 : cond1 (grid0.coords t) := (hcond1 t).mpr hz
      rw [acc0_zero V c t hz, Phi0_castSucc V c t, Phi0_zero V c _ _ hz]
      iintro ⟨⟨HS, Hr, Hg⟩, Ho, ⟨%d0, H0⟩, ⟨%d1, H1⟩⟩
      iapply (kernel_first c Set.univ (grid0.coords t) _ _ _ _ _ _ h1 h2 (iblk0 V c 0 t) _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      iexists _; iexact H1
    · have h1 : ¬cond1 (grid0.coords t) := fun h => hz ((hcond1 t).mp h)
      rw [acc0_pos V c t hz, Phi0_castSucc V c t, Phi0_pos V c _ _ hz]
      iintro ⟨⟨HS, Hr, Hg⟩, Ho, ⟨%d0, H0⟩, ⟨%d1, H1⟩⟩
      iapply (kernel_mid c Set.univ (grid0.coords t) _ _ _ _ _ _ h1 h2 (iblk0 V c 0 t) _ _ _)
      isplitl [H0]; · iexact H0
      isplitl [H1]; · iexact H1
      isplitl [HS]; · iexact HS
      iintro ⟨H0, H1, HS⟩
      isplitl [HS Hr Hg]
      · isplitl [HS]; · iexact HS
        isplitl [Hr]; · iexact Hr
        iexact Hg
      isplitl [Ho]; · iexact Ho
      isplitl [H0]; · iexact H0
      iexists _; iexact H1

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- The scoped buffers no window of this region stages, split into the scratch and the rest. -/
theorem scopedRest0_split (c : Dev nD) :
    (Pipeline.scopedRest (Ix := Unit) (Name := ℕ) (U := UR sig nD τ) (Lvl := ℕ) (Val := Elt F) spec0 c : sProp 𝕄)
      = iprop((∃ d, owns (c : Thread nD τ) scM fullShare d) ∗ restB c) := by
  rw [scopedRest0_eq]; unfold restB; simp only [scM, owns_whole]; rfl

/-- What the region's entry hands over is the invariant before the first point. -/
theorem hin0 (c : Dev nD) : iprop((∃ r, prngReg c r) ∗ Pipeline.scopedRest (Ix := Unit) (Name := ℕ) (U := UR sig nD τ) (Lvl := ℕ) (Val := Elt F) spec0 c)
    ⊢ (dat0 V c).Φ 0 := by
  rw [show (dat0 V c).Φ 0 = Phi0 V c 0 (Nat.zero_le _) from rfl, Phi0_zero V c 0 _ rfl, scopedRest0_split]
  iintro ⟨Hg, HS, Hr⟩
  isplitl [HS]; · iexact HS
  isplitl [Hr]; · iexact Hr
  iexact Hg

/-- After the last point the invariant gives the scoped buffers and the register back, the scratch's contents forgotten. -/
theorem hout0 (c : Dev nD) : (dat0 V c).Φ (Fin.last cfg0.N)
    ⊢ iprop((∃ r, prngReg c r) ∗ Pipeline.scopedRest (Ix := Unit) (Name := ℕ) (U := UR sig nD τ) (Lvl := ℕ) (Val := Elt F) spec0 c) := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 100 := N_0; omega), scopedRest0_split]
  iintro ⟨HS, Hr, Hg⟩
  isplitl [Hg]; · iexact Hg
  isplitl [HS]; · iexists _; iexact HS
  iexact Hr

end Total

end Cert.KernelIdeal.Hand

end
-- ==== Proof.KernelIdeal.FusedRegion.lean ====
/-
  The second kernel region (the fused normalise-and-project kernel, 50 grid points).

  At point t the body reads a block of 2000 rows of the neighbour sums, the row of column totals, the transposed
  weights and the bias row — the last three the same at every point — and stores one value, the body's whole
  arithmetic as one term of those four, over the whole 2000 × 128 output block.  So what the output's staging
  buffer holds after the body is that term of the four input blocks, the inputs' buffers are left as found, and
  nothing is kept between points.
-/
import proofs.«419768_j38388417692550_2_alg».proof.Proof.Gen.KernelIdeal.Launch
import proofs.«419768_j38388417692550_2_alg».proof.Proof.Gen.KernelIdeal.Skeleton
import proofs.«419768_j38388417692550_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The zero offsets of a rank-2 whole-buffer rectangle, as a function. -/
theorem off2_zero : (![0, 0] : Fin 2 → ℕ) = fun _ => 0 := by
  funext a; fin_cases a <;> rfl

section Fused
variable (V : (c : Dev nD) → (b : Ref sig .tc) → Buf (Elt F) ((c : Thread nD τ).loc b))

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not (an unfetched
    window's block index has not moved), for any proof data over these arrays whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- The whole-buffer rectangles the body loads and stores through. -/
abbrev rN : Rect S2000x128 := Rect.unit (s := S2000x128) ![0, 0] S2000x128.size inb_S2000x128_S2000x128_0_0
abbrev rT : Rect S1x128 := Rect.unit (s := S1x128) ![0, 0] S1x128.size inb_S1x128_S1x128_0_0
abbrev rW : Rect S128x128 := Rect.unit (s := S128x128) ![0, 0] S128x128.size inb_S128x128_S128x128_0_0

/-- What the body leaves in the output window's buffer: its one stored value, of the four input blocks. -/
def out1_4 (x0 : Vec F S2000x128 .f32) (x1 : Vec F S1x128 .f32) (x2 : Vec F S128x128 .f32) (x3 : Vec F S1x128 .f32) : Vec F S2000x128 .f32 :=
  k1_pay1 x0 x1 x2 x3

/-- The one store covers the buffer. -/
theorem cover1_4 (p0 : Vec F S2000x128 .f32) (y : S2000x128.Idx) :
    ∃ pc ∈ ([⟨rN, p0⟩] : List (View.Piece (Elt F) S2000x128 .f32)), y ∈ pc.1.set :=
  ⟨_, List.mem_singleton_self _, View.mem_set_unit_zero off2_zero inb_S2000x128_S2000x128_0_0 y⟩

set_option maxHeartbeats 1000000 in
/-- The body on whole staging memrefs, the inputs' at given contents and the output's at anything, runs to the
    continuation with the inputs' as they were and the output's at the body's value of them. -/
theorem sound_kernel1 (c : Dev nD) (E : Set ℕ) (i : grid1.Coords)
    (arg1 : Memref sig .tc .vmem S2000x128 .f32) (harg1 : arg1.IsWhole) (arg2 : Memref sig .tc .vmem S1x128 .f32) (harg2 : arg2.IsWhole)
    (arg3 : Memref sig .tc .vmem S128x128 .f32) (harg3 : arg3.IsWhole) (arg4 : Memref sig .tc .vmem S1x128 .f32) (harg4 : arg4.IsWhole)
    (arg5 : Memref sig .tc .vmem S2000x128 .f32) (harg5 : arg5.IsWhole)
    (x0 : Vec F S2000x128 .f32) (x1 : Vec F S1x128 .f32) (x2 : Vec F S128x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__fused_kernel i arg1 harg1 arg2 harg2 arg3 harg3 arg4 harg4 arg5 harg5) K := by
  simp only [cc1__fused_kernel_eq_skeleton]; unfold cc1__fused_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  refine (View.read_writes_eq_canon _ _ _ (cover1_4 _)).trans ?_
  rw [View.canon_unit_zero off2_zero]
  unfold out1_4
  simp only [View.readAt_eq_ld, View.ld_unit_zero (S := S2000x128) off2_zero, View.ld_unit_zero (S := S1x128) off2_zero,
    View.ld_unit_zero (S := S128x128) off2_zero]

/-- The proof data of the second pipeline on core c: the arrays as the region finds them; after the body each
    input's buffer at its block and the output's at the body's value of the input blocks; the invariant the scoped
    rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-- What the body is called with at point t, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the body's triple applies; the invariant and
    what the core owes pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ _ _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Fused

end Cert.KernelIdeal.Hand

end
-- ==== Proof.KernelIdeal.Boundaries.lean ====
/-
  The buffers' contents at the boundaries between the items of the program's top level: the launch memory, then
  each stretch of host operations applied in order, and after a kernel region the region's arrays at what its
  write-backs leave, every other buffer as the region found it.
-/
import proofs.«419768_j38388417692550_2_alg».proof.Proof.KernelIdeal.TotalRegion
import proofs.«419768_j38388417692550_2_alg».proof.Proof.KernelIdeal.FusedRegion
import proofs.«419768_j38388417692550_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Core c's buffers at launch. -/
abbrev B0 : Dev nD → Valuation τ sig (Elt F) := fun c b => m (c, b)
/-- After the first stretch (the take of the features' rows at the source indices). -/
abbrev B1 : Dev nD → Valuation τ sig (Elt F) := fun c => StableHlo.after hostOps0 (B0 m c)
/-- After the second stretch (the scatter-add into the neighbour sums): the first region's entry. -/
abbrev B2 : Dev nD → Valuation τ sig (Elt F) := fun c => StableHlo.after hostOps0_1 (B1 m c)
/-- The same read at the TensorCore's references (what the first region's proof data take). -/
abbrev inR0 : (c : Dev nD) → (b : Ref sig .tc) → Buf (Elt F) ((c : Thread nD τ).loc b) := fun c b => B2 m c b
/-- At the first region's exit: its arrays at what the pipeline leaves, every other buffer as entered. -/
def B3 (c : Dev nD) : Valuation τ sig (Elt F) :=
  Pipeline.withArrays spec0 c (B2 m c) fun w => (dat0 (inR0 m) c).arrAt w cfg0.N
theorem B3_arr (c : Dev nD) (w : Fin cfg0.W) :
    B3 m c (Proc.devRef .tc (Pipeline.arrRef spec0 w)) = (dat0 (inR0 m) c).arrAt w cfg0.N := by
  unfold B3; exact Pipeline.withArrays_arr spec0 launch0.win.arr_inj c _ _ w
theorem B3_of_ne (c : Dev nD) (b : Ref sig .tc) (hb : ∀ w, Pipeline.arrRef spec0 w ≠ b) :
    B3 m c (Proc.devRef .tc b) = B2 m c (Proc.devRef .tc b) := by
  unfold B3; exact Pipeline.withArrays_of_ne spec0 c _ _ b hb
abbrev outR0 : (c : Dev nD) → (b : Ref sig .tc) → Buf (Elt F) ((c : Thread nD τ).loc b) := fun c b => B3 m c b
theorem hF0 (c : Dev nD) (w : Fin cfg0.W) : (dat0 (inR0 m) c).arrAt w cfg0.N = outR0 m c (Pipeline.arrRef spec0 w) :=
  (B3_arr m c w).symm
theorem hrest0 (c : Dev nD) : ∀ b, b ∉ Finset.univ.image (Pipeline.arrRef spec0) → outR0 m c b = inR0 m c b :=
  fun b hb => B3_of_ne m c b fun w e => hb (Finset.mem_image.mpr ⟨w, Finset.mem_univ _, e⟩)

/-- After the third stretch (the weights transposed, the bias as a row): the second region's entry. -/
abbrev B4 : Dev nD → Valuation τ sig (Elt F) := fun c => StableHlo.after hostOps1 (B3 m c)
abbrev inR1 : (c : Dev nD) → (b : Ref sig .tc) → Buf (Elt F) ((c : Thread nD τ).loc b) := fun c b => B4 m c b
/-- At the second region's exit. -/
def B5 (c : Dev nD) : Valuation τ sig (Elt F) :=
  Pipeline.withArrays spec1 c (B4 m c) fun w => (dat1 (inR1 m) c).arrAt w cfg1.N
theorem B5_arr (c : Dev nD) (w : Fin cfg1.W) :
    B5 m c (Proc.devRef .tc (Pipeline.arrRef spec1 w)) = (dat1 (inR1 m) c).arrAt w cfg1.N := by
  unfold B5; exact Pipeline.withArrays_arr spec1 launch1.win.arr_inj c _ _ w
theorem B5_of_ne (c : Dev nD) (b : Ref sig .tc) (hb : ∀ w, Pipeline.arrRef spec1 w ≠ b) :
    B5 m c (Proc.devRef .tc b) = B4 m c (Proc.devRef .tc b) := by
  unfold B5; exact Pipeline.withArrays_of_ne spec1 c _ _ b hb
abbrev outR1 : (c : Dev nD) → (b : Ref sig .tc) → Buf (Elt F) ((c : Thread nD τ).loc b) := fun c b => B5 m c b
theorem hF1 (c : Dev nD) (w : Fin cfg1.W) : (dat1 (inR1 m) c).arrAt w cfg1.N = outR1 m c (Pipeline.arrRef spec1 w) :=
  (B5_arr m c w).symm
theorem hrest1 (c : Dev nD) : ∀ b, b ∉ Finset.univ.image (Pipeline.arrRef spec1) → outR1 m c b = inR1 m c b :=
  fun b hb => B5_of_ne m c b fun w e => hb (Finset.mem_image.mpr ⟨w, Finset.mem_univ _, e⟩)

/-! What each stretch leaves unchanged: a buffer none of its operations writes. -/

theorem B1_of (c : Dev nD) (r : Ref sig .tc) (h : r ∉ hostOps0_W) : B1 m c r = B0 m c r :=
  StableHlo.after_of_writes_sub hostOps0 _ hostOps0_writes h
theorem B2_of (c : Dev nD) (r : Ref sig .tc) (h : r ∉ hostOps0_1_W) : B2 m c r = B1 m c r :=
  StableHlo.after_of_writes_sub hostOps0_1 _ hostOps0_1_writes h
theorem B4_of (c : Dev nD) (r : Ref sig .tc) (h : r ∉ hostOps1_W) : B4 m c r = B3 m c r :=
  StableHlo.after_of_writes_sub hostOps1 _ hostOps1_writes h

/-! No item writes an argument: a host stretch writes only its results, the first region reads the features through
    an input window and writes its own result, the second region stages no argument. -/

theorem B5_main_arg0 (c : Dev nD) : B5 m c main_arg0 = m ((c : Thread nD τ).loc main_arg0) :=
  (B5_of_ne m c main_arg0 (by decide)).trans <| (B4_of m c main_arg0 (by decide)).trans <|
    ((B3_arr m c 0).trans (((dat0 (inR0 m) c).arrAt_in 0 rfl _).trans (A_eq0 (inR0 m) c 0))).trans <|
    (B2_of m c main_arg0 (by decide)).trans <| (B1_of m c main_arg0 (by decide)).trans rfl
theorem B5_main_arg1 (c : Dev nD) : B5 m c main_arg1 = m ((c : Thread nD τ).loc main_arg1) :=
  (B5_of_ne m c main_arg1 (by decide)).trans <| (B4_of m c main_arg1 (by decide)).trans <|
    (B3_of_ne m c main_arg1 (by decide)).trans <|
    (B2_of m c main_arg1 (by decide)).trans <| (B1_of m c main_arg1 (by decide)).trans rfl
theorem B5_main_arg2 (c : Dev nD) : B5 m c main_arg2 = m ((c : Thread nD τ).loc main_arg2) :=
  (B5_of_ne m c main_arg2 (by decide)).trans <| (B4_of m c main_arg2 (by decide)).trans <|
    (B3_of_ne m c main_arg2 (by decide)).trans <|
    (B2_of m c main_arg2 (by decide)).trans <| (B1_of m c main_arg2 (by decide)).trans rfl
theorem B5_main_arg3 (c : Dev nD) : B5 m c main_arg3 = m ((c : Thread nD τ).loc main_arg3) :=
  (B5_of_ne m c main_arg3 (by decide)).trans <| (B4_of m c main_arg3 (by decide)).trans <|
    (B3_of_ne m c main_arg3 (by decide)).trans <|
    (B2_of m c main_arg3 (by decide)).trans <| (B1_of m c main_arg3 (by decide)).trans rfl
theorem B5_main_arg4 (c : Dev nD) : B5 m c main_arg4 = m ((c : Thread nD τ).loc main_arg4) :=
  (B5_of_ne m c main_arg4 (by decide)).trans <| (B4_of m c main_arg4 (by decide)).trans <|
    (B3_of_ne m c main_arg4 (by decide)).trans <|
    (B2_of m c main_arg4 (by decide)).trans <| (B1_of m c main_arg4 (by decide)).trans rfl

/-- The program's result buffer at the end is the second region's output array after its last write-back. -/
theorem B5_main_v7 (c : Dev nD) : B5 m c main_v7 = (dat1 (inR1 m) c).arrAt 4 cfg1.N := B5_arr m c 4

end Cert.KernelIdeal.Hand

end
-- ==== Proof.KernelIdeal.MainRun.lean ====
/-
  The run of the program's top level: two stretches of host operations, the column-total region, one more stretch,
  the fused region.  Each stretch runs over all unscoped buffers held at the boundary's contents; each region is
  entered from the boundary before it and left at the one after it.  Every weakly fair execution therefore ends,
  without a fault, with every unscoped buffer at the last boundary's contents: the arguments as launched, the result
  at the fused region's output array after its last write-back.
-/
import proofs.«419768_j38388417692550_2_alg».proof.Proof.KernelIdeal.Boundaries

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (inR0 m) c
  | ⟨1, _⟩ => fun c => dat1 (inR1 m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the generator register at some state, and nothing owed. -/
abbrev R (c : Dev nD) : sProp 𝕄 := iprop((∃ r, prngReg c r) ∗ ∃ W, owes (c : Thread nD τ) (0 : CellTallies nD τ sig Unit) W)
/-- A stretch of host operations as an item, over the unscoped references from the contents W. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without what is owed: every unscoped buffer at the last boundary's contents, the register. -/
abbrev Tₙ (c : Dev nD) : sProp 𝕄 := iprop(StableHlo.held (c : Thread nD τ) (Pipeline.ucRefs τ sig) (B5 m c) ∗ ∃ r, prngReg c r)

set_option backward.isDefEq.respectTransparency.types false in
/-- Region 0 over the thread state: entered from every unscoped buffer at the boundary before it, left at the one
    after it. Its arrays are split out of the unscoped buffers and put back at their exit contents; the generator
    register goes into the region's invariant and comes back; nothing is owed; the kernel has no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (inR0 m) c).loose
  hwaits := Pipeline.hwaits_of_owed_zero _ _ _ _ L lv 0 fun _ _ => rfl
  pre c := iprop(StableHlo.held (c : Thread nD τ) (Pipeline.ucRefs τ sig) (B2 m c) ∗ R c)
  post c := iprop(StableHlo.held (c : Thread nD τ) (Pipeline.ucRefs τ sig) (B3 m c) ∗ R c)
  X c := iprop(∃ r, prngReg c r)
  Y c := iprop(∃ r, prngReg c r)
  Z c := Pipeline.unscopedRest (Ix := Unit) (Name := ℕ) (U := UR sig nD τ) (Lvl := ℕ) spec0 c (inR0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (inR0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = (dat0 (inR0 m) c).Φ 0 from rfl]
    iintro ⟨Hp, -, Hr⟩
    iapply (hin0 (inR0 m) c)
    isplitl [Hp]; · iexact Hp
    iexact Hr
  hout c := by
    rw [Pipeline.ownSems0_none, show (pdats m 0 c).Φ (Fin.last _) = (dat0 (inR0 m) c).Φ (Fin.last cfg0.N) from rfl]
    iintro H
    ihave H' := (hout0 (inR0 m) c) $$ H
    icases H' with ⟨Hp, Hr⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (inR0 m c) (outR0 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one
    after it. Its arrays are split out of the unscoped buffers and put back at their exit contents; the generator
    register goes into the region's invariant and comes back; nothing is owed; the kernel has no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (inR1 m) c).loose
  hwaits := Pipeline.hwaits_of_owed_zero _ _ _ _ L lv 1 fun _ _ => rfl
  pre c := iprop(StableHlo.held (c : Thread nD τ) (Pipeline.ucRefs τ sig) (B4 m c) ∗ R c)
  post c := iprop(Tₙ m c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (inR1 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (inR1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (inR1 m c) (outR1 m c) ((pdats m 1 c).arrAt · cfg1.N) (hF1 m c) (hrest1 m c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's five items in order. -/
abbrev segs : List (Pipeline.Seg (pcfgs (F := F)) adm (pdats m) () defs₀ 𝒱₀ L lv) :=
  [ .host (hseg hostOps0 hostOps0_sub hostOps0_fresh (B0 m)),
    .host (hseg hostOps0_1 hostOps0_1_sub hostOps0_1_fresh (B1 m)),
    .region (reg0 m),
    .host (hseg hostOps1 hostOps1_sub hostOps1_fresh (B3 m)),
    .region (reg1 m) ]
/-- The program is the run of its items. -/
theorem main_run (c : Dev nD) : main (F := F) c = Pipeline.Seg.run (segs m) := (main_chain c).trans (by chain_rfl)

set_option backward.isDefEq.respectTransparency.types false in
/-- THE RUN: from any memory with zero counters every weakly fair execution of the program terminates, nothing
    faulting, and every final state holds every unscoped buffer at the last boundary's contents. -/
theorem run_main : θ_run defs (onTc (τ := τ) (main (F := F))) ⟨m, fun _ => 0, ρ⟩ (fun r => ∀ c : Dev nD,
      ∀ b ∈ Pipeline.ucRefs τ sig, r.2.mem (((c : Thread nD τ)).1, b) = B5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ R c)) (Tₙ := Tₙ m)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B5 m c b)
    (hfin := fun c s' => by
      iintro ⟨⟨Hh, -⟩, HSI⟩
      unfold StableHlo.held
      imodintro
      iapply (pointsTo_read_all (Pipeline.ucRefs τ sig) (fun b => (((c : Thread nD τ)).1, b)) (B5 m c) s')
      isplitl [Hh] <;> iassumption)
    (hQ := fun s h c => h c)

/-- THE FRAME: every execution ends with the five argument arrays as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c)⟩) (run_main m ρ)

/-- THE RESULT: every execution ends with the result buffer at the fused region's output array, the arguments as launched. -/
theorem run_value : θ_run defs (onTc (τ := τ) (main (F := F))) ⟨m, fun _ => 0, ρ⟩ (fun r => ∀ c : Dev nD,
      r.2.mem ((c.tc : Thread nD τ).loc main_v7) = (dat1 (inR1 m) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨(h c _ (mem_uc main_v7 (by decide))).trans (B5_main_v7 m c),
     (h c _ (mem_uc main_arg0 (by decide))).trans (B5_main_arg0 m c),
     (h c _ (mem_uc main_arg1 (by decide))).trans (B5_main_arg1 m c),
     (h c _ (mem_uc main_arg2 (by decide))).trans (B5_main_arg2 m c),
     (h c _ (mem_uc main_arg3 (by decide))).trans (B5_main_arg3 m c),
     (h c _ (mem_uc main_arg4 (by decide))).trans (B5_main_arg4 m c)⟩) (run_main m ρ)

end Cert.KernelIdeal.Hand

end
-- ==== Proof.Spec.lean ====
/-
  The layer's result as one function of its arguments, over the extended reals.

  For a node p the row h(p) is the column totals of the features less the sum of the features of p's neighbours;
  the row is divided by its Euclidean norm (floored at a small positive constant) and mapped through the
  linear layer: out(p, q) = Σ_k (h(p)_k / max(‖h(p)‖, ε)) · W(q, k) + b(q).
-/
import Idealize.ShloMosaic.PureOps.Ideal
import Idealize.ShloMosaic.Lib.ValueIdx

noncomputable section

namespace Cert.Spec

open Idealize.ShloMosaic Idealize.ShloMosaic.ValueIdx

/-- The floor under the norm: the binary value of the f32 word nearest 1e-12. -/
def eps : EReal := Ideal.ofBits .f32 0x2B8CBCCC#32

/-- One entry of the layer's output from the node's row h, the weight row w and the bias entry β:
    Σ_k (h_k / max(√(Σ_l h_l · h_l), ε)) · w_k + β. -/
def rowOut (h w : Fin 128 → EReal) (β : EReal) : EReal :=
  (∑ k : Fin 128, Ideal.div (h k) (max (Ideal.sqrt (∑ l : Fin 128, h l * h l)) eps) * w k) + β

/-- The column totals of a 100000 × 128 array. -/
def colTotal (x : (⟨2, ![100000, 128]⟩ : Shape).Idx → EReal) (k : Fin 128) : EReal :=
  ∑ i : Fin 100000, x (ix2 i k)

/-- The layer's output at node p, output feature q, from the features x, the neighbour sums ν, the weights W
    (output feature × input feature) and the bias b. -/
def layer (x ν : (⟨2, ![100000, 128]⟩ : Shape).Idx → EReal) (W : (⟨2, ![128, 128]⟩ : Shape).Idx → EReal)
    (b : (⟨1, ![128]⟩ : Shape).Idx → EReal) (p : Fin 100000) (q : Fin 128) : EReal :=
  rowOut (fun k => colTotal x k - ν (ix2 p k)) (fun k => W (ix2 q k)) (b (ix1 q))

end Cert.Spec

end
-- ==== Proof.RefValue.lean ====
/-
  The reference program's result, read at one node p and one output feature q, is the layer's specification.

  Reading the reference's operations from the last to the first at the index (p, q): the bias is read at q; the
  contraction runs over the input features k with the weights read transposed, at (q, k); the normalised row is the row
  h(p) divided by the larger of its Euclidean norm and the floor ε; h(p)_k is the column total of the features at k less
  the neighbour sum at (p, k). The two sums the reference takes with the initial value 0 are the plain sums, because
  0 + s = s. The neighbour sums themselves are kept as one unnamed array ν: nothing about them is used here.
-/
import proofs.«419768_j38388417692550_2_alg».proof.Proof.Gen.ReferenceIdeal.Read
import proofs.«419768_j38388417692550_2_alg».proof.Proof.Spec
import Idealize.ShloMosaic.Lib.ValueIdx
import Idealize.ShloMosaic.PureOps.Ideal
import Idealize.ShloMosaic.PureOps.Ideal.Laws

noncomputable section

namespace Cert.RefValue

open Cert.ReferenceIdeal Cert.ReferenceIdeal.Read Idealize.ShloMosaic Idealize.ShloMosaic.ValueIdx

/-! ## Where each operation reads, at indices given by their coordinates -/

/-- The bias broadcast over the nodes reads row 0 of the 1 × 128 bias. -/
theorem idx25 (p : Fin 100000) (q : Fin 128) : idx_main_v25 (ix2 p q) = ix2 (0 : Fin 1) q :=
  funext fun a => Fin.ext (by match a with | ⟨0, _⟩ => rfl | ⟨1, _⟩ => rfl)

/-- The 1 × 128 bias at (0, q) is the bias at q. -/
theorem idx24 (q : Fin 128) : idx_main_v24 (ix2 (0 : Fin 1) q) = ix1 q :=
  funext fun a => Fin.ext (by match a with | ⟨0, _⟩ => rfl)

/-- The contraction's left operand at (p, q), term k, is read at (p, k). -/
theorem lidx23 (p : Fin 100000) (q k : Fin 128) : lidx_main_v23 (ix2 p q) k = ix2 p k :=
  funext fun a => Fin.ext (by match a with | ⟨0, _⟩ => rfl | ⟨1, _⟩ => rfl)

/-- The contraction's right operand at (p, q), term k, is read at (k, q). -/
theorem ridx23 (p : Fin 100000) (q k : Fin 128) : ridx_main_v23 (ix2 p q) k = ix2 k q :=
  funext fun a => Fin.ext (by match a with | ⟨0, _⟩ => rfl | ⟨1, _⟩ => rfl)

/-- The transposed weights at (k, q) are the weights at (q, k). -/
theorem idx22 (k q : Fin 128) : idx_main_v22 (ix2 k q) = ix2 q k :=
  funext fun a => Fin.ext (by match a with | ⟨0, _⟩ => rfl | ⟨1, _⟩ => rfl)

/-- The norm broadcast along a row reads the node's one entry of the 100000 × 1 column. -/
theorem idx20 (p : Fin 100000) (k : Fin 128) : idx_main_v20 (ix2 p k) = ix2 p (0 : Fin 1) :=
  funext fun a => Fin.ext (by match a with | ⟨0, _⟩ => rfl | ⟨1, _⟩ => rfl)

/-- The 100000 × 1 column at (p, 0) is the vector of row sums at p. -/
theorem idx16 (p : Fin 100000) : idx_main_v16 (ix2 p (0 : Fin 1)) = ix1 p :=
  funext fun a => Fin.ext (by match a with | ⟨0, _⟩ => rfl)

/-- The row sum at p, term l, is read at (p, l). -/
theorem idx15 (p : Fin 100000) (l : Fin 128) : idx_main_v15 (ix1 p) l = ix2 p l :=
  funext fun a => Fin.ext (by match a with | ⟨0, _⟩ => rfl | ⟨1, _⟩ => rfl)

/-- The column totals broadcast over the nodes read row 0 of the 1 × 128 totals. -/
theorem idx12 (p : Fin 100000) (k : Fin 128) : idx_main_v12 (ix2 p k) = ix2 (0 : Fin 1) k :=
  funext fun a => Fin.ext (by match a with | ⟨0, _⟩ => rfl | ⟨1, _⟩ => rfl)

/-- The 1 × 128 totals at (0, k) are the column totals at k. -/
theorem idx11 (k : Fin 128) : idx_main_v11 (ix2 (0 : Fin 1) k) = ix1 k :=
  funext fun a => Fin.ext (by match a with | ⟨0, _⟩ => rfl)

/-- The column total at k, term i, is read at (i, k). -/
theorem idx10 (k : Fin 128) (i : Fin 100000) : idx_main_v10 (ix1 k) i = ix2 i k :=
  funext fun a => Fin.ext (by match a with | ⟨0, _⟩ => rfl | ⟨1, _⟩ => rfl)

/-! ## The stages at an index -/

/-- The column totals: the reference's sum with initial value 0 is the plain sum over the nodes. -/
theorem total_at (x0 : (⟨S100000x128, .f32⟩ : BufTy).Contents (Elt Ideal)) (p : Fin 100000) (k : Fin 128) :
    val_main_v12 (F := Ideal) x0 (ix2 p k) = Cert.Spec.colTotal x0 k := by
  rw [val_main_v12_apply, idx12, val_main_v11_apply, idx11, val_main_v10_apply, val_main_cst_1_apply]
  simp only [idx10, Ideal.ofBits_def, Ideal.ofBits_zero_f32, zero_add, Cert.Spec.colTotal]

/-- The row h(p) at k: the column total at k less the neighbour sum at (p, k). -/
theorem row_at (x0 : (⟨S100000x128, .f32⟩ : BufTy).Contents (Elt Ideal))
    (x3 x4 : (⟨S1600000, .i32⟩ : BufTy).Contents (Elt Ideal)) (p : Fin 100000) (k : Fin 128) :
    val_main_v13 (F := Ideal) x0 x3 x4 (ix2 p k)
      = Cert.Spec.colTotal x0 k - val_main_v9 (F := Ideal) x0 x3 x4 (ix2 p k) := by
  rw [val_main_v13_apply, total_at, Ideal.subf_def]

/-- The floored norm of the row h(p), read anywhere along the row. -/
theorem norm_at (x0 : (⟨S100000x128, .f32⟩ : BufTy).Contents (Elt Ideal))
    (x3 x4 : (⟨S1600000, .i32⟩ : BufTy).Contents (Elt Ideal)) (p : Fin 100000) (k : Fin 128) :
    val_main_v20 (F := Ideal) x0 x3 x4 (ix2 p k)
      = max (Ideal.sqrt (∑ l : Fin 128,
          (Cert.Spec.colTotal x0 l - val_main_v9 (F := Ideal) x0 x3 x4 (ix2 p l))
            * (Cert.Spec.colTotal x0 l - val_main_v9 (F := Ideal) x0 x3 x4 (ix2 p l)))) Cert.Spec.eps := by
  rw [val_main_v20_apply, idx20, val_main_v19_apply, val_main_v17_apply, val_main_v16_apply, idx16,
    val_main_v15_apply, val_main_cst_2_apply, val_main_v18_apply, val_main_cst_3_apply]
  simp only [idx15, val_main_v14_apply, row_at, Ideal.mulf_def, Ideal.maximumf_def, Ideal.hostUnary_sqrt_def,
    Ideal.ofBits_def, Ideal.ofBits_zero_f32, zero_add, Cert.Spec.eps]

/-- The reference's result at node p, output feature q, is the layer's specification at the features, the neighbour
    sums the reference computes, the weights and the bias. -/
theorem ref_eq (x0 : (⟨Cert.ReferenceIdeal.S100000x128, .f32⟩ : BufTy).Contents (Elt Ideal))
    (x1 : (⟨Cert.ReferenceIdeal.S128x128, .f32⟩ : BufTy).Contents (Elt Ideal))
    (x2 : (⟨Cert.ReferenceIdeal.S128, .f32⟩ : BufTy).Contents (Elt Ideal))
    (x3 x4 : (⟨Cert.ReferenceIdeal.S1600000, .i32⟩ : BufTy).Contents (Elt Ideal)) (p : Fin 100000) (q : Fin 128) :
    Cert.ReferenceIdeal.Read.val_main_v26 (F := Ideal) x0 x1 x2 x3 x4 (Idealize.ShloMosaic.ValueIdx.ix2 p q)
      = Cert.Spec.layer x0 (Cert.ReferenceIdeal.Read.val_main_v9 (F := Ideal) x0 x3 x4) x1 x2 p q := by
  rw [val_main_v26_apply, val_main_v25_apply, idx25, val_main_v24_apply, idx24, val_main_v23_apply]
  simp only [lidx23, ridx23, val_main_v22_apply, idx22, val_main_v21_apply, row_at, norm_at, Ideal.addf_def,
    Ideal.hostDivf_def, Cert.Spec.layer, Cert.Spec.rowOut]

end Cert.RefValue

end
-- ==== Proof.LibPlainDot.lean ====
/-
  A plain matrix product read at an entry.

  For dimension numbers that contract the left operand's axis 1 with the right operand's axis 0, keep the
  left operand's axis 0 and the right operand's axis 1, and have no batch axes, the operand indices at the
  result entry (p, q) and contraction position k are (p, k) and (k, q). So, at the ideal values, a
  `tpu.matmul` into the zero accumulator is the textbook sum  ∑ k, l (p, k) * r (k, q)  over the
  extended reals. Stated for ANY record with those six lists (each equation is `rfl` at a printed record),
  at any extents and element formats.
-/
import Idealize.ShloMosaic.Lib.ValueIdx
import Idealize.ShloMosaic.PureOps.Ideal.Laws

noncomputable section

namespace Idealize.ShloMosaic.PlainDot

open Idealize.ShloMosaic Idealize.ShloMosaic.ValueIdx

variable {M K N : Nat} (d : DotDims ⟨2, ![M, K]⟩ ⟨2, ![K, N]⟩ ⟨2, ![M, N]⟩)

/-- Two reads of an index at positions that are equal numbers agree. -/
private theorem val_congr {n : Nat} {sz : Fin n → Nat} (j : (a : Fin n) → Fin (sz a)) :
    ∀ (a b : Nat) (ha : a < n) (hb : b < n), a = b → (j ⟨a, ha⟩).val = (j ⟨b, hb⟩).val :=
  fun a b ha hb h => by subst h; rfl

/-- The left operand's row is the result's row. -/
theorem lhs_row (hln : d.lhsNonContracting = [0]) (hlb : d.lhsBatch = [])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  simp only [Fin.val_cast]
  exact val_congr j _ _ _ _ (by simp [hlb, hln])

/-- The left operand's column is the contraction position. -/
theorem lhs_col (hlc : d.lhsContracting = [1]) (j : (⟨2, ![M, N]⟩ : Shape).Idx) (k : d.contr.Idx) :
    (d.lhsIdx j k 1).val = (k ⟨0, by rw [d.rank_contr, hlc]; exact Nat.one_pos⟩).val :=
  d.lhsIdx_val_of_single hlc j k

/-- The right operand's row is the contraction position. -/
theorem rhs_row (hrc : d.rhsContracting = [0]) (j : (⟨2, ![M, N]⟩ : Shape).Idx) (k : d.contr.Idx) :
    (d.rhsIdx j k 0).val = (k ⟨0, by rw [d.rank_contr, ← d.length_contracting, hrc]; exact Nat.one_pos⟩).val :=
  d.rhsIdx_val_of_single hrc j k

/-- The right operand's column is the result's column. -/
theorem rhs_col (hln : d.lhsNonContracting = [0]) (hrn : d.rhsNonContracting = [1]) (hlb : d.lhsBatch = [])
    (hrb : d.rhsBatch = []) (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  simp only [Fin.val_cast]
  exact val_congr j _ _ _ _ (by simp [hlb, hln, hrn])

/-- A `tpu.matmul` of such a record into the zero accumulator, at the ideal values and at entry (p, q): the sum
    over the contraction positions of the products of the left operand's row p and the right operand's column q. -/
theorem matmul_zero_apply {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (p : Fin M) (q : Fin N) :
    FloatOps.matmul d prec l r (constant (F := Ideal) ⟨2, ![M, N]⟩ .f32 0x00000000#32) (ix2 p q)
      = ∑ k : Fin K, l (ix2 p k) * r (ix2 k q) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hln hlb _ _
    | ⟨1, _⟩ => exact (lhs_col d hlc _ _).trans hk)
  have er : d.rhsIdx (ix2 p q) ((contrEquiv1 d K hr hs).symm k) = ix2 k q := funext fun a => Fin.ext (by
    match a with
    | ⟨0, _⟩ => exact (rhs_row d hrc _ _).trans hk
    | ⟨1, _⟩ => exact rhs_col d hln hrn hlb hrb _ _)
  rw [el, er]

/-- The same at any index of the result, its two coordinates read off it. -/
theorem matmul_zero_apply_at {φ₁ φ₂ : FTy}
    (hlc : d.lhsContracting = [1]) (hrc : d.rhsContracting = [0]) (hln : d.lhsNonContracting = [0])
    (hrn : d.rhsNonContracting = [1]) (hlb : d.lhsBatch = []) (hrb : d.rhsBatch = [])
    (hr : d.contr.rank = 1) (hs : d.contr.size ⟨0, by omega⟩ = K)
    (prec : Option ContractPrecision) (l : FVec Ideal ⟨2, ![M, K]⟩ φ₁) (r : FVec Ideal ⟨2, ![K, N]⟩ φ₂)
    (y : (⟨2, ![M, N]⟩ : Shape).Idx) :
    FloatOps.matmul d prec l r (constant (F := Ideal) ⟨2, ![M, N]⟩ .f32 0x00000000#32) y
      = ∑ k : Fin K, l (ix2 ⟨(y 0).val, (y 0).isLt⟩ k) * r (ix2 k ⟨(y 1).val, (y 1).isLt⟩) :=
  (congrArg (FloatOps.matmul d prec l r (constant (F := Ideal) ⟨2, ![M, N]⟩ .f32 0x00000000#32)) (eq_ix2 y)).trans
    (matmul_zero_apply d hlc hrc hln hrn hlb hrb hr hs prec l r (y 0) (y 1))

end Idealize.ShloMosaic.PlainDot

end
-- ==== Proof.LibColumn.lean ====
/-
  Keep-dims columns read at an index.

  A row statistic of an [a, b] array (a row's maximum, a row's sum) is computed as an [a] vector, cast to the
  column [a, 1] and broadcast back over the b columns. Read at (p, c) the result is the statistic of row p,
  whatever the column c. The two layout steps, at any extents and element type.
-/
import Idealize.ShloMosaic.Lib.Pipeline.Value
import Idealize.ShloMosaic.Lib.ValueIdx

noncomputable section

namespace Idealize.ShloMosaic.Column

open Idealize.ShloMosaic Idealize.ShloMosaic.ValueIdx

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The two steps together: an `[a]` vector as a column, broadcast over `b` columns, at `(p, c)` is the vector at `p`. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) :=
  (broadcastTo_a1_ab_apply _ h' p c).trans (shapeCast_a_a1_apply x h p 0)

end Idealize.ShloMosaic.Column

end
-- ==== Proof.LibRowRead.lean ====
/-
  Rows of a rank-2 array read through a reduction over the columns, and a unit middle axis dropped.

  A sum or a maximum over axis 1 of an [R, C] array, at row p, ranges over the entries (p, k), k a column:
  the sum is their sum, the maximum the fold of max from the starting value. An [R, 1, C] array cast to [R, C]
  reads, at (p, k), the entry (p, 0, k). And the four float words these programs use, as extended reals.
-/
import Idealize.ShloMosaic.PureOps.Ideal.Laws
import Idealize.ShloMosaic.Lib.Pipeline.Value
import Idealize.ShloMosaic.Lib.ValueIdx

noncomputable section

namespace Cert.RowRead

open Idealize.ShloMosaic Idealize.ShloMosaic.ValueIdx

variable {R C : ℕ} {φ : FTy}

/-- The reduced index p with column k put back is (p, k). -/
theorem lift_row (h : (⟨2, ![R, C]⟩ : Shape).Reduces [1] (⟨1, ![R]⟩ : Shape)) (p : Fin R)
    (k : Fin ((⟨2, ![R, C]⟩ : Shape).size 1)) : h.lift (ix1 p) k = ix2 p (⟨k.val, k.isLt⟩ : Fin C) := by
  funext c; apply Fin.ext
  fin_cases c <;> rfl

/-- A sum over the columns, at row p. -/
theorem rowSum_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.add.neutral φ hφ) (p : Fin R) :
    multiReduction .add [1] (⟨1, ![R]⟩ : Shape) src acc h hφ hacc (ix1 p) = ∑ k : Fin C, src (ix2 p k) := by
  rw [Ideal.multiReduction_add_single]
  exact Finset.sum_congr rfl fun k _ => congrArg src (lift_row h p k)

/-- A maximum over the columns, at row p: the fold of max from the accumulator's value. -/
theorem rowMax_apply (src : FVec Ideal (⟨2, ![R, C]⟩ : Shape) φ) (acc : BitVec φ.bits)
    (h : (⟨2, ![R, C]⟩ : Shape).Reduces [1] (⟨1, ![R]⟩ : Shape)) (hφ : FKind.Formats φ)
    (hacc : acc = FKind.maximumf.neutral φ hφ) (p : Fin R) :
    multiReduction .maximumf [1] (⟨1, ![R]⟩ : Shape) src acc h hφ hacc (ix1 p)
      = (Finset.univ : Finset (Fin C)).fold max (Ideal.ofBits φ acc) (fun k => src (ix2 p k)) := by
  rw [Ideal.multiReduction_maximumf_single]
  have hf : (src ∘ h.lift (ix1 p)) = fun k : Fin C => src (ix2 p k) := funext fun k => congrArg src (lift_row h p k)
  exact congrArg (fun f => Finset.fold max (Ideal.ofBits φ acc) f (Finset.univ : Finset (Fin C))) hf

/-- The f32 sum from the zero word, its side proofs typed as a program spells them. -/
theorem rowSum_f32 (src : FVec Ideal (⟨2, ![R, C]⟩ : Shape) .f32)
    (h : (⟨2, ![R, C]⟩ : Shape).Reduces [1] (⟨1, ![R]⟩ : Shape)) (hφ : FKind.Formats .f32)
    (hacc : (0x00000000#32 : BitVec 32) = 0x00000000#32) (p : Fin R) :
    multiReduction .add [1] (⟨1, ![R]⟩ : Shape) src 0x00000000#32 h hφ hacc (ix1 p) = ∑ k : Fin C, src (ix2 p k) :=
  rowSum_apply src _ h hφ hacc p

/-- The f32 maximum from the word of -∞, likewise: the fold of max from the bottom element. -/
theorem rowMax_f32 (src : FVec Ideal (⟨2, ![R, C]⟩ : Shape) .f32)
    (h : (⟨2, ![R, C]⟩ : Shape).Reduces [1] (⟨1, ![R]⟩ : Shape)) (hφ : FKind.Formats .f32)
    (hacc : (0xFF800000#32 : BitVec 32) = 0xFF800000#32) (p : Fin R) :
    multiReduction .maximumf [1] (⟨1, ![R]⟩ : Shape) src 0xFF800000#32 h hφ hacc (ix1 p)
      = (Finset.univ : Finset (Fin C)).fold max ⊥ (fun k => src (ix2 p k)) := by
  have e : Ideal.ofBits .f32 0xFF800000#32 = ⊥ := by simp [Ideal.ofBits, Ideal.ieee]
  rw [← e]
  exact rowMax_apply src _ h hφ hacc p

/-- The host's maximum over the columns, at row p: the fold of max from the initial value. -/
theorem hostRowMax_apply (x : FVec Ideal (⟨2, ![R, C]⟩ : Shape) φ) (init : (⟨0, ![]⟩ : Shape).Idx → Ideal φ)
    (h' : (⟨2, ![R, C]⟩ : Shape).ReducesTo [1] (⟨1, ![R]⟩ : Shape))
    (h : (⟨2, ![R, C]⟩ : Shape).Reduces [1] (⟨1, ![R]⟩ : Shape)) (hu : 0 < (⟨0, ![]⟩ : Shape).numel) (p : Fin R) :
    Host.reduce FloatOps.maximumf x init h' hu (ix1 p)
      = (Finset.univ : Finset (Fin C)).fold max (init (Shape.Idx.first hu)) (fun k => x (ix2 p k)) := by
  rw [Host.reduce_eq_fold_single FloatOps.maximumf x init h' h hu]
  have hf : (x ∘ h.lift (ix1 p)) = fun k : Fin C => x (ix2 p k) := funext fun k => congrArg x (lift_row h p k)
  exact congrArg (fun f => Finset.fold max (init (Shape.Idx.first hu)) f (Finset.univ : Finset (Fin C))) hf

/-- An [R, 1, C] array with its unit axis dropped reads, at (p, k), the entry (p, 0, k). -/
theorem squeeze_apply {α : Type} (x : (⟨3, ![R, 1, C]⟩ : Shape).Idx → α)
    (h : (⟨3, ![R, 1, C]⟩ : Shape).ShapeCasts (⟨2, ![R, C]⟩ : Shape)) (p : Fin R) (k : Fin C) :
    shapeCast (⟨2, ![R, C]⟩ : Shape) x h (ix2 p k) = x (ix3 p (0 : Fin 1) k) :=
  shapeCast_apply x h _ _ (by
    rw [Shape.rowMajor_val_three, Shape.rowMajor_val_two]
    show (p.val * 1 + 0) * C + k.val = p.val * C + k.val
    rw [Nat.mul_one, Nat.add_zero])

/-- Reading a vector through `exp`, entry by entry. -/
theorem exp_apply {s : Shape} (a : FVec Ideal s φ) (i : s.Idx) : exp a i = Ideal.exp (a i) := rfl

/-! ## The float words -/

theorem word_zero : Ideal.ofBits .f32 0x00000000#32 = 0 := Ideal.ofBits_zero_f32
theorem word_one : Ideal.ofBits .f32 0x3F800000#32 = 1 := by simp [Ideal.ofBits, Ideal.ieee, -EReal.coe_mul]; norm_num
theorem word_thousand : Ideal.ofBits .f32 0x447A0000#32 = ((1000 : ℝ) : EReal) := by
  simp [Ideal.ofBits, Ideal.ieee, -EReal.coe_mul]; norm_num
theorem word_neg_inf : Ideal.ofBits .f32 0xFF800000#32 = ⊥ := by simp [Ideal.ofBits, Ideal.ieee]

end Cert.RowRead

end
-- ==== Proof.FusedValue.lean ====
/-
  The value of the fused normalise-and-project region, entry by entry.

  At grid point t the body reads rows 2000·t … 2000·t + 1999 of the neighbour sums ν, the row T of column totals,
  the transposed weights W and the bias row b, and stores, over its 2000 × 128 block,

      out(r, q) = Σ_k (h_k / max(√(Σ_l h_l · h_l), ε)) · W(k, q) + b(q),     h_k = T(k) − ν(2000·t + r, k).

  Three steps. First the body's one stored value, a term of the four loaded blocks, is read at an index (r, q) of
  the block: the pointwise operations pass the index through, a row broadcast down the rows reads its one row, the
  lane sum at row r is the sum over the columns, its keep-dims column broadcast over the columns reads row r, and the
  matrix product into the zero accumulator is the sum over the contraction position. Second the blocks are parts of
  the arrays: a block's coordinate is the block index times the block size plus the coordinate inside the block, and
  the index maps are decided once over the 50 grid points (the neighbour sums' and the output's block at point t is
  block (t, 0); the other three arrays are read whole). Third, what point t writes back is block t of ONE function
  of the arrays on the whole 100000 × 128 index set, row p lies in the block of point p / 2000, and so the output
  array ends holding that function.
-/
import proofs.«419768_j38388417692550_2_alg».proof.Proof.KernelIdeal.FusedRegion
import proofs.«419768_j38388417692550_2_alg».proof.Proof.Spec
import proofs.«419768_j38388417692550_2_alg».proof.Proof.LibPlainDot
import proofs.«419768_j38388417692550_2_alg».proof.Proof.LibColumn
import proofs.«419768_j38388417692550_2_alg».proof.Proof.LibRowRead
import Idealize.ShloMosaic.Lib.ValueLayout

set_option maxRecDepth 16384

noncomputable section

namespace Cert.FusedValue

open Idealize.ShloMosaic Idealize.ShloMosaic.TcCoe Idealize.ShloMosaic.ValueIdx
open Idealize.ShloMosaic.Pipeline (Dat)
open Cert.KernelIdeal Cert.KernelIdeal.Gen Cert.KernelIdeal.Hand

/-- A square root of a vector, entry by entry. -/
theorem sqrt_apply {s : Shape} {φ : FTy} (a : FVec Ideal s φ) (i : s.Idx) : sqrt a i = Ideal.sqrt (a i) := rfl

/-- The body's value at row r, column q of its block: the row h = (totals − the block's row r), divided by
    max(√(Σ_l h_l · h_l), ε), contracted with column q of the weights block, plus the bias entry q. -/
theorem pay_apply (x0 : Vec Ideal S2000x128 .f32) (x1 : Vec Ideal S1x128 .f32) (x2 : Vec Ideal S128x128 .f32)
    (x3 : Vec Ideal S1x128 .f32) (r : Fin 2000) (q : Fin 128) :
    k1_pay1 x0 x1 x2 x3 (ix2 r q)
      = Cert.Spec.rowOut (fun k => x1 (ix2 0 k) - x0 (ix2 r k)) (fun k => x2 (ix2 k q)) (x3 (ix2 0 q)) := by
  unfold k1_pay1
  simp only [shapeCast_self]
  rw [addf_apply, broadcastTo_1b_ab_apply]
  unfold matmul
  rw [PlainDot.matmul_zero_apply dot_S2000x128_S128x128_S2000x128_1_0_0_1_n_n rfl rfl rfl rfl rfl rfl rfl rfl]
  unfold Cert.Spec.rowOut
  congr 1
  refine Finset.sum_congr rfl fun k _ => ?_
  rw [divf_apply, subf_apply, broadcastTo_1b_ab_apply, Column.broadcastTo_a1_ab_apply, maximumf_apply, sqrt_apply,
    Column.shapeCast_a_a1_apply, RowRead.rowSum_f32, broadcast_apply]
  simp only [mulf_apply, subf_apply, broadcastTo_1b_ab_apply]
  rfl

/-! ## The blocks as parts of the arrays -/

/-- The printed index maps, decided once over the grid: the neighbour sums' and the output's block at point t is
    block (t, 0); the totals, the weights and the bias are read whole at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section Blocks
variable (V : (c : Dev nD) → (b : Ref sig .tc) → Buf (Elt Ideal) ((c : Thread nD τ).loc b))

/-- The neighbour sums' block at point t, at (r, k), is the array at (2000·t + r, k). -/
theorem blk0_apply (c : Dev nD) (t : Fin cfg1.N) (y : S2000x128.Idx) (i : S100000x128.Idx)
    (h0 : (i 0).val = 2000 * t.val + (y 0).val) (h1 : (i 1).val = (y 1).val) :
    (iblk1 V c 0 t : Vec Ideal S2000x128 .f32) y = (V c main_v3 : S100000x128.Idx → EReal) i := by
  obtain ⟨e0, e1, -⟩ := idx_facts t
  unfold iblk1
  rw [View.read_apply]
  show V c main_v3 _ = V c main_v3 _
  congr 1
  funext a
  apply Fin.ext
  match a with
  | ⟨0, _⟩ => show win1_0.index t (0 : Fin 2) * 2000 + 1 * (y 0).val = (i 0).val; rw [e0, h0]; omega
  | ⟨1, _⟩ => show win1_0.index t (1 : Fin 2) * 128 + 1 * (y 1).val = (i 1).val; rw [e1, h1]; omega

/-- The totals' block at any point is the whole row. -/
theorem blk1_apply (c : Dev nD) (t : Fin cfg1.N) (y : S1x128.Idx) :
    (iblk1 V c 1 t : Vec Ideal S1x128 .f32) y = (V c main_v4 : S1x128.Idx → EReal) y := by
  obtain ⟨-, -, e0, e1, -⟩ := idx_facts t
  unfold iblk1
  rw [View.read_apply]
  show V c main_v4 _ = V c main_v4 _
  congr 1
  funext a
  apply Fin.ext
  match a with
  | ⟨0, _⟩ => show win1_1.index t (0 : Fin 2) * 1 + 1 * (y 0).val = (y 0).val; rw [e0]; omega
  | ⟨1, _⟩ => show win1_1.index t (1 : Fin 2) * 128 + 1 * (y 1).val = (y 1).val; rw [e1]; omega

/-- The weights' block at any point is the whole matrix. -/
theorem blk2_apply (c : Dev nD) (t : Fin cfg1.N) (y : S128x128.Idx) :
    (iblk1 V c 2 t : Vec Ideal S128x128 .f32) y = (V c main_v5 : S128x128.Idx → EReal) y := by
  obtain ⟨-, -, -, -, e0, e1, -⟩ := idx_facts t
  unfold iblk1
  rw [View.read_apply]
  show V c main_v5 _ = V c main_v5 _
  congr 1
  funext a
  apply Fin.ext
  match a with
  | ⟨0, _⟩ => show win1_2.index t (0 : Fin 2) * 128 + 1 * (y 0).val = (y 0).val; rw [e0]; omega
  | ⟨1, _⟩ => show win1_2.index t (1 : Fin 2) * 128 + 1 * (y 1).val = (y 1).val; rw [e1]; omega

/-- The bias' block at any point is the whole row. -/
theorem blk3_apply (c : Dev nD) (t : Fin cfg1.N) (y : S1x128.Idx) :
    (iblk1 V c 3 t : Vec Ideal S1x128 .f32) y = (V c main_v6 : S1x128.Idx → EReal) y := by
  obtain ⟨-, -, -, -, -, -, e0, e1, -⟩ := idx_facts t
  unfold iblk1
  rw [View.read_apply]
  show V c main_v6 _ = V c main_v6 _
  congr 1
  funext a
  apply Fin.ext
  match a with
  | ⟨0, _⟩ => show win1_3.index t (0 : Fin 2) * 1 + 1 * (y 0).val = (y 0).val; rw [e0]; omega
  | ⟨1, _⟩ => show win1_3.index t (1 : Fin 2) * 128 + 1 * (y 1).val = (y 1).val; rw [e1]; omega

end Blocks

/-! ## From the blocks to the output array -/

/-- An array read as a function on a literal index set: the identity, fixing the entries' type as the extended reals. -/
abbrev rd (s : Shape) (f : s.Idx → EReal) : s.Idx → EReal := f

section Array
variable (V : (c : Dev nD) → (b : Ref sig .tc) → Buf (Elt Ideal) ((c : Thread nD τ).loc b))

/-- What the output array holds after the region, entry by entry: at node p and feature q the layer's entry of the
    row (totals − neighbour sums of p), the weights' column q and the bias entry q. -/
def outArr (c : Dev nD) : S100000x128.Idx → EReal := fun i =>
  Cert.Spec.rowOut (fun k => rd S1x128 (V c main_v4) (ix2 0 k) - rd S100000x128 (V c main_v3) (ix2 (i 0) k))
    (fun k => rd S128x128 (V c main_v5) (ix2 k (i 1))) (rd S1x128 (V c main_v6) (ix2 0 (i 1)))

/-- The body's value at point t, at an index of its block, is the output's entry at the matching index of the array. -/
theorem out_apply (c : Dev nD) (t : Fin cfg1.N) (y : S2000x128.Idx) (i : S100000x128.Idx)
    (h0 : (i 0).val = 2000 * t.val + (y 0).val) (h1 : (i 1).val = (y 1).val) :
    out1_4 (iblk1 V c 0 t) (iblk1 V c 1 t) (iblk1 V c 2 t) (iblk1 V c 3 t) y = outArr V c i := by
  obtain ⟨r, q, rfl⟩ : ∃ (r : Fin 2000) (q : Fin 128), y = ix2 r q := ⟨y 0, y 1, eq_ix2 y⟩
  have hq : i 1 = q := Fin.ext h1
  unfold out1_4
  refine (pay_apply (iblk1 V c 0 t) (iblk1 V c 1 t) (iblk1 V c 2 t) (iblk1 V c 3 t) r q).trans ?_
  unfold outArr
  rw [hq]
  refine congr (congr (congrArg Cert.Spec.rowOut (funext fun k => ?_)) (funext fun k => ?_)) ?_
  · rw [blk1_apply V c t, blk0_apply V c t (ix2 r k) (ix2 (i 0) k) h0 rfl]
  · exact blk2_apply V c t _
  · exact blk3_apply V c t _

/-- What point t writes back is block t of that array. -/
theorem flushed_eq (c : Dev nD) (t : Fin cfg1.N) :
    (dat1 (F := Ideal) V c).flushed 4 t = ((cfg1.win 4).blk t).view.read (Elt Ideal) (outArr V c) := by
  obtain ⟨-, -, -, -, -, -, -, -, e0, e1⟩ := idx_facts t
  show (cfg1.win 4).cut (grid1.coords t) ((dat1 V c).after 4 t) = _
  rw [after1_4]
  funext y
  show out1_4 (iblk1 V c 0 t) (iblk1 V c 1 t) (iblk1 V c 2 t) (iblk1 V c 3 t) y = outArr V c (((cfg1.win 4).blk t).view.emb y)
  refine out_apply V c t _ _ ?_ ?_
  · show win1_4.index t (0 : Fin 2) * 2000 + 1 * (y 0).val = 2000 * t.val + (y 0).val
    rw [e0]; omega
  · show win1_4.index t (1 : Fin 2) * 128 + 1 * (y 1).val = (y 1).val
    rw [e1]; omega

/-- An index of the array is in point t's block iff each coordinate is in the block's range on its axis. -/
theorem mem_blk (t : Fin cfg1.N) (i : S100000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v7).slice (win1_4.rect t)).set ↔ _
  rw [View.set_slice_whole, Rect.mem_set_unit]
  exact Iff.rfl

/-- Row p of the array lies in the block of point p / 2000. -/
theorem cover (i : S100000x128.Idx) : ∃ t : Fin cfg1.N, (cfg1.win 4).flush t = true ∧ i ∈ ((cfg1.win 4).blk t).view.set := by
  have hi0 : (i 0).val < 100000 := (i 0).isLt
  have hi1 : (i 1).val < 128 := (i 1).isLt
  have hN : cfg1.N = 50 := rfl
  have ht : (i 0).val / 2000 < cfg1.N := by rw [hN]; omega
  obtain ⟨-, -, -, -, -, -, -, -, e0, e1⟩ := idx_facts ⟨(i 0).val / 2000, ht⟩
  refine ⟨⟨(i 0).val / 2000, ht⟩, flush1_4 _, ?_⟩
  rw [mem_blk]
  intro a
  match a with
  | ⟨0, _⟩ =>
    show win1_4.index ⟨(i 0).val / 2000, ht⟩ (0 : Fin 2) * 2000 ≤ (i 0).val
      ∧ (i 0).val < win1_4.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_4.index ⟨(i 0).val / 2000, ht⟩ (1 : Fin 2) * 128 ≤ (i 1).val
      ∧ (i 1).val < win1_4.index ⟨(i 0).val / 2000, ht⟩ (1 : Fin 2) * 128 + 128
    rw [e1]; omega

/-- The output array after the region is that array. -/
theorem arr_eq (c : Dev nD) : (dat1 (F := Ideal) V c).arrAt 4 cfg1.N = outArr V c :=
  (dat1 (F := Ideal) V c).arrAt_eq_of_cover 4 (outArr V c) (fun t _ => flushed_eq V c t) cover

/-- The output array after the region at node p and feature q. -/
theorem fused_arr (c : Dev nD) (p : Fin 100000) (q : Fin 128) :
    (dat1 (F := Ideal) V c).arrAt 4 cfg1.N (ix2 p q)
      = Cert.Spec.rowOut (fun k => rd S1x128 (V c main_v4) (ix2 0 k) - rd S100000x128 (V c main_v3) (ix2 p k))
          (fun k => rd S128x128 (V c main_v5) (ix2 k q)) (rd S1x128 (V c main_v6) (ix2 0 q)) := by
  rw [arr_eq]
  rfl

end Array

end Cert.FusedValue

end
-- ==== Proof.TotalValue.lean ====
/-
  The value the column-total region leaves in its output array, over the extended reals.

  The region walks the 100 row blocks of the features in order. Its one-row accumulator starts at the zero row and,
  at each block, takes the block's column sums on top of what it held; the last point hands the accumulator to the
  output array. Addition of extended reals is commutative and associative, so after point n the accumulator at
  column q is the sum over the blocks 0..n of the block's column-q sums, and a block's entry (r, q) at point t is the
  features' entry (1000 t + r, q). Summing over all 100 blocks and the 1000 rows of each is summing over all
  100000 rows: the column total.
-/
import proofs.«419768_j38388417692550_2_alg».proof.Proof.KernelIdeal.TotalRegion
import proofs.«419768_j38388417692550_2_alg».proof.Proof.Spec
import Idealize.ShloMosaic.PureOps.Ideal.Laws
import Idealize.ShloMosaic.Lib.Pipeline.Value
import Idealize.ShloMosaic.Lib.ValueIdx
import Idealize.ShloMosaic.Lib.ValueLayout
import Mathlib.Algebra.BigOperators.Fin
import Mathlib.Logic.Equiv.Fin.Basic

set_option maxRecDepth 16384

noncomputable section

namespace Cert.TotalValue

open Idealize.ShloMosaic Idealize.ShloMosaic.TcCoe Idealize.ShloMosaic.ValueIdx
open Idealize.ShloMosaic.Pipeline (Dat)
open Cert.KernelIdeal Cert.KernelIdeal.Gen Cert.KernelIdeal.Hand

/-! ## Blocks of consecutive rows -/

/-- A sum over n = a·b consecutive positions, taken block by block: a blocks of b positions each, position r of
    block t being b·t + r. -/
theorem sum_by_blocks {M : Type*} [AddCommMonoid M] {a b n : ℕ} (hn : a * b = n) (f : Fin n → M)
    (g : Fin a → Fin b → M)
    (hg : ∀ (t : Fin a) (r : Fin b) (h : b * t.val + r.val < n), g t r = f ⟨b * t.val + r.val, h⟩) :
    ∑ t : Fin a, ∑ r : Fin b, g t r = ∑ i : Fin n, f i := by
  subst hn
  rw [← Equiv.sum_comp finProdFinEquiv f, Fintype.sum_prod_type]
  refine Finset.sum_congr rfl fun t _ => Finset.sum_congr rfl fun r _ => ?_
  have hlt : b * t.val + r.val < a * b := by
    have := (finProdFinEquiv (t, r)).isLt
    simp only [finProdFinEquiv_apply_val] at this
    omega
  rw [hg t r hlt]
  congr 1
  apply Fin.ext
  simp only [finProdFinEquiv_apply_val]
  omega

/-! ## The two payloads at one column -/

/-- The cleared row is zero everywhere. -/
theorem pay1_apply (q : Fin 128) : (k0_pay1 (F := Ideal)) (ix2 (0 : Fin 1) q) = 0 := by
  unfold k0_pay1
  rw [shapeCast_self]
  exact Ideal.ofBits_zero_f32

/-- The reduced index q with row r put back is (r, q). -/
theorem lift_col (h : S1000x128.Reduces [0] S128) (q : Fin 128) (r : Fin (S1000x128.size 0)) :
    h.lift (ix1 q) r = ix2 (⟨r.val, r.isLt⟩ : Fin 1000) q := by
  funext a; apply Fin.ext
  fin_cases a <;> rfl

/-- A sum over the rows of a 1000 × 128 array, at column q, is the sum of the column's 1000 entries. -/
theorem colSum_f32 (src : FVec Ideal S1000x128 .f32) (h : S1000x128.Reduces [0] S128) (hφ : FKind.Formats .f32)
    (hacc : (0x00000000#32 : BitVec 32) = 0x00000000#32) (q : Fin 128) :
    multiReduction .add [0] S128 src 0x00000000#32 h hφ hacc (ix1 q) = ∑ r : Fin 1000, src (ix2 r q) :=
  (Ideal.multiReduction_add_single src 0x00000000#32 h hφ hacc (ix1 q)).trans
    (Finset.sum_congr rfl fun r _ => congrArg src (lift_col h q r))

/-- The update term at column q: what the accumulator held there plus the block's column-q sum. -/
theorem pay2_apply (s : Vec Ideal S1x128 .f32) (x : Vec Ideal S1000x128 .f32) (q : Fin 128) :
    k0_pay2 s x (ix2 (0 : Fin 1) q) = s (ix2 (0 : Fin 1) q) + ∑ r : Fin 1000, x (ix2 r q) := by
  unfold k0_pay2
  rw [shapeCast_self, addf_apply, shapeCast_a_1a_apply]
  exact congrArg (s (ix2 (0 : Fin 1) q) + ·) (colSum_f32 x _ _ _ q)

/-! ## The accumulator after each point -/

section Region
variable (V : (c : Dev nD) → (b : Ref sig .tc) → Buf (Elt Ideal) ((c : Thread nD τ).loc b))

/-- The block of the features the region is handed at point t, as a 1000 × 128 array. -/
abbrev blk (c : Dev nD) (t : Fin cfg0.N) : Vec Ideal S1000x128 .f32 := iblk0 V c 0 t

/-- After point n the accumulator at column q is the sum, over the points up to n, of the block's column-q sums. -/
theorem acc_apply (c : Dev nD) (q : Fin 128) : ∀ (n : ℕ) (h : n < cfg0.N),
    acc0 V c n h (ix2 (0 : Fin 1) q)
      = ∑ t : Fin (n + 1), ∑ r : Fin 1000, blk V c ⟨t.val, lt_of_le_of_lt (Nat.le_of_lt_succ t.isLt) h⟩ (ix2 r q)
  | 0, h => by
    show k0_pay2 (k0_pay1 (F := Ideal)) (blk V c ⟨0, h⟩) (ix2 (0 : Fin 1) q) = _
    rw [pay2_apply, pay1_apply, zero_add, Fin.sum_univ_one]
    rfl
  | n + 1, h => by
    show k0_pay2 (acc0 V c n _) (blk V c ⟨n + 1, h⟩) (ix2 (0 : Fin 1) q) = _
    rw [pay2_apply, acc_apply c q n]
    exact (Fin.sum_univ_castSucc (fun t : Fin (n + 1 + 1) =>
      ∑ r : Fin 1000, blk V c ⟨t.val, lt_of_le_of_lt (Nat.le_of_lt_succ t.isLt) h⟩ (ix2 r q))).symm

/-! ## A block's entries in the features -/

/-- The input window's block index at point t is (t, 0). -/
theorem index_in : ∀ t : Fin cfg0.N, win0_0.index t 0 = t.val ∧ win0_0.index t 1 = 0 :=
  (by decide +kernel : ∀ t : Fin grid0.N, win0_0.index t 0 = t.val ∧ win0_0.index t 1 = 0)

/-- Entry (r, q) of the block at point t is the features' entry (1000 t + r, q). -/
theorem blk_apply (c : Dev nD) (t : Fin cfg0.N) (r : Fin 1000) (q : Fin 128) :
    blk V c t (ix2 r q)
      = V c main_arg0 (ix2 (⟨1000 * t.val + r.val, by
          have hN : cfg0.N = 100 := N_0
          have := t.isLt; have := r.isLt; omega⟩ : Fin 100000) q) := by
  unfold blk iblk0
  rw [View.read_apply]
  show V c main_arg0 _ = V c main_arg0 _
  congr 1
  funext a; apply Fin.ext
  match a with
  | ⟨0, _⟩ => show win0_0.index t 0 * 1000 + 1 * r.val = 1000 * t.val + r.val; rw [(index_in t).1]; omega
  | ⟨1, _⟩ => show win0_0.index t 1 * 128 + 1 * q.val = q.val; rw [(index_in t).2]; omega

/-! ## The output array after the region -/

/-- The output window's block index is (0, 0) at every point. -/
theorem index_out : ∀ (t : Fin cfg0.N) (a : Fin 2), win0_1.index t a = 0 :=
  (by decide +kernel : ∀ (t : Fin grid0.N) (a : Fin 2), win0_1.index t a = 0)

/-- So its block sits in the array at zero offsets. -/
theorem off_out (t : Fin cfg0.N) : (fun a => win0_1.index t a * main_v4.ty.shape.size a) = fun _ => 0 :=
  funext fun a => by rw [index_out t a, Nat.zero_mul]

theorem last_lt : 99 < cfg0.N := by rw [show cfg0.N = 100 from N_0]; decide

/-- What the accumulator holds after the last point, as contents of the output array: the window's one block is the
    whole array. -/
abbrev result (c : Dev nD) : Buf (Elt Ideal) ((c : Thread nD τ).loc main_v4) := acc0 V c 99 last_lt

/-- The one write-back, at the last point, writes it. -/
theorem flushed_eq (c : Dev nD) (t : Fin cfg0.N) (hf : (cfg0.win 1).flush t = true) :
    (dat0 V c).flushed 1 t = ((cfg0.win 1).blk t).view.read (Elt Ideal) (result V c) := by
  have hN : cfg0.N = 100 := N_0
  have h99 : t.val = 99 := by have := (flush0_1 t).mp hf; have := t.isLt; omega
  obtain ⟨n, hn⟩ := t
  obtain rfl : n = 99 := h99
  show (cfg0.win 1).cut (grid0.coords ⟨99, hn⟩) ((dat0 V c).after 1 ⟨99, hn⟩) = _
  rw [after0_1]
  exact (Memref.read_access_unit_zero (Elt Ideal) main_v4 (off_out ⟨99, hn⟩)
    (fun a => by rw [congrFun (off_out ⟨99, hn⟩) a]; simp) (result V c)).symm

/-- So the output array ends holding the accumulator of the last point. -/
theorem final_out (c : Dev nD) : (dat0 V c).arrAt 1 cfg0.N = result V c :=
  (dat0 V c).arrAt_eq_of_cover 1 (result V c) (flushed_eq V c) fun i =>
    ⟨⟨99, last_lt⟩, (flush0_1 ⟨99, last_lt⟩).mpr rfl, by
      show i ∈ ((View.whole main_v4).slice (win0_1.rect ⟨99, last_lt⟩)).set
      rw [View.set_slice_whole]
      exact View.mem_set_unit_zero (off_out ⟨99, last_lt⟩) _ i⟩

/-! ## The column totals -/

/-- The region leaves in its output array, at column q, the column-q total of the features it found. -/
theorem total_arr (c : Dev nD) (q : Fin 128) :
    (dat0 V c).arrAt 1 cfg0.N (ix2 (0 : Fin 1) q) = Cert.Spec.colTotal (V c main_arg0) q := by
  rw [final_out]
  show acc0 V c 99 last_lt (ix2 (0 : Fin 1) q) = _
  rw [acc_apply]
  simp only [blk_apply]
  exact sum_by_blocks (M := EReal) (a := 100) (b := 1000) (n := 100000) (by norm_num)
    (fun i : Fin 100000 => (V c main_arg0 : S100000x128.Idx → EReal) (ix2 i q)) _ (fun t r h => rfl)

end Region

end Cert.TotalValue

end
-- ==== Proof.LibTake.lean ====
/-
  jnp.take along axis 0 with in-range indices.

  The default-mode take wraps negative indices once, gathers with the wrapped indices as start
  indices, and replaces by a fill value every row whose wrapped index lies outside the table.
  When every index is already a natural number below the table's row count N (with N below 2³¹,
  so that each word is non-negative as a signed integer), nothing wraps, every row passes the
  range test, and the whole composite is the plain gather at the given indices.

  Also here: a concatenation of in-range indices with an iota stays in range.
-/
import Idealize.ShloMosaic.PureOps
import Idealize.ShloMosaic.Lib.StableHlo.Predicate
import Idealize.ShloMosaic.Lib.ReduceAll
import Idealize.ShloMosaic.Lib.Pipeline.Value

namespace Cert.LibTake

open Idealize.ShloMosaic
open Idealize.ShloMosaic.StableHlo.Predicate

variable {α : Type}

/-! ## A select whose condition is all ones -/

/-- A select under a mask that is 1 at every index returns its first branch. -/
theorem select_ones {s : Shape} (mask : IVec s 1) (a b : s.Idx → α) (h : ∀ i, mask i = 1#1) :
    select mask a b = a := by
  funext i
  show Scalar.select (mask i) (a i) (b i) = a i
  unfold Scalar.select
  rw [h i]
  exact if_pos rfl

/-- A select under a mask that is 1 nowhere returns its second branch. -/
theorem select_none {s : Shape} (mask : IVec s 1) (a b : s.Idx → α) (h : ∀ i, ¬ mask i = 1#1) :
    select mask a b = b := by
  funext i
  show Scalar.select (mask i) (a i) (b i) = b i
  unfold Scalar.select
  exact if_neg (h i)

/-! ## The wrap of negative indices -/

/-- With every index a natural number below N < 2³¹, no index is negative as a signed word, so the
    select that adds N to the negative ones returns the index vector itself. -/
theorem wrap_id {R N : Nat} (hN : N < 2 ^ 31) (idx : IVec ⟨1, ![R]⟩ 32) (hidx : ∀ r, (idx r).toNat < N)
    (hz hn : (⟨0, ![]⟩ : Shape).BroadcastsInDim ⟨1, ![R]⟩ ![]) :
    select (cmpi .slt idx (broadcastInDim ⟨1, ![R]⟩ ![] hz (constantI ⟨0, ![]⟩ 32 0#32)))
      (addi idx (broadcastInDim ⟨1, ![R]⟩ ![] hn (constantI ⟨0, ![]⟩ 32 (BitVec.ofNat 32 N)))) idx = idx := by
  apply select_none
  intro r
  show ¬ IntOp.cmpi .slt (idx r) 0#32 = 1#1
  have hr := hidx r
  rw [slt_iff_toNat (by omega) (by decide)]
  simp

/-! ## The range mask -/

/-- A left fold by `and` from 1 over words that are all 1 is 1. -/
theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = (1#1 : BitVec 1) from by decide]
    exact foldl_andi_ones f hf l

/-- A reduction by `and` from an initial value 1 of an array that is 1 everywhere is 1 at every result index. -/
theorem reduce_andi_ones {s t u : Shape} {axes : List (Fin s.rank)} (x : s.Idx → BitVec 1) (init : u.Idx → BitVec 1)
    (h : s.ReducesTo axes t) (hu : 0 < u.numel) (hx : ∀ i, x i = 1#1) (hinit : init (Shape.Idx.first hu) = 1#1)
    (j : t.Idx) : Host.reduce IntOp.andi x init h hu j = 1#1 := by
  rw [Host.reduce_eq_foldl, hinit]
  exact foldl_andi_ones x hx _

/-- With every index a natural number below N < 2³¹, the start-index column passes both range tests
    (0 ≤ index, index ≤ N − 1) in every row, so the row mask — their conjunction reduced by `and` along the
    column axis — is 1 at every row. -/
theorem mask_ones {R N : Nat} (hN : N < 2 ^ 31) (idx : IVec ⟨1, ![R]⟩ 32) (hidx : ∀ r, (idx r).toNat < N)
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (j : (⟨1, ![R]⟩ : Shape).Idx) :
    Host.reduce IntOp.andi
      (andi
        (cmpi .sge (broadcastInDim ⟨2, ![R, 1]⟩ ![0] hI idx)
          (broadcastInDim ⟨2, ![R, 1]⟩ ![] h0 (constantI ⟨0, ![]⟩ 32 0#32)))
        (cmpi .sle (broadcastInDim ⟨2, ![R, 1]⟩ ![0] hI idx)
          (broadcastInDim ⟨2, ![R, 1]⟩ ![0, 1] h2
            (broadcastInDim ⟨2, ![1, 1]⟩ ![1] h1 (constantI ⟨1, ![1]⟩ 32 (BitVec.ofNat 32 (N - 1)))))))
      (constantI ⟨0, ![]⟩ 1 1#1) hr hu j = 1#1 := by
  apply reduce_andi_ones _ _ hr hu _ rfl
  intro i
  -- the start index at i is one of the given indices
  obtain ⟨r, hIr⟩ : ∃ r, broadcastInDim ⟨2, ![R, 1]⟩ ![0] hI idx i = idx r := ⟨_, rfl⟩
  have hlt := hidx r
  have hM : (BitVec.ofNat 32 (N - 1)).toNat = N - 1 := by
    rw [BitVec.toNat_ofNat]; exact Nat.mod_eq_of_lt (by omega)
  show IntOp.andi (IntOp.cmpi .sge (broadcastInDim ⟨2, ![R, 1]⟩ ![0] hI idx i) 0#32)
      (IntOp.cmpi .sle (broadcastInDim ⟨2, ![R, 1]⟩ ![0] hI idx i) (BitVec.ofNat 32 (N - 1))) = 1#1
  rw [hIr, IntOp.andi_eq_one, sge_iff_toNat (by omega) (by decide), sle_iff_toNat (by omega) (by rw [hM]; omega), hM]
  exact ⟨Nat.zero_le _, by omega⟩

/-! ## The take composite is the plain gather -/

/-- THE TAKE OF ROWS (a table whose gathered slices have C entries each; result [R, C]). With every index a natural number
    below N < 2³¹: the wrap of negative indices does nothing, the row mask — broadcast along the rows of the result — is
    all ones, and so the select between the gathered rows and the fill array is the gather at the given indices kept
    as an [R, 1] column. The table's shape, the gather's dimension numbers and the fill array are arbitrary. -/
theorem take_rows_eq {R N C : Nat} {s : Shape} (hN : N < 2 ^ 31) (idx : IVec ⟨1, ![R]⟩ 32)
    (hidx : ∀ r, (idx r).toNat < N) (d : GatherDims s ⟨2, ![R, 1]⟩ ⟨2, ![R, C]⟩) (x : s.Idx → α)
    (fill : (⟨2, ![R, C]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel)
    (hm : (⟨1, ![R]⟩ : Shape).BroadcastsInDim ⟨2, ![R, C]⟩ ![0]) :
    select
      (broadcastInDim ⟨2, ![R, C]⟩ ![0] hm
        (Host.reduce IntOp.andi
          (andi
            (cmpi .sge
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![] h0 (constantI ⟨0, ![]⟩ 32 0#32)))
            (cmpi .sle
              (broadcastInDim ⟨2, ![R, 1]⟩ ![0] hI
                (select (cmpi .slt idx (broadcastInDim ⟨1, ![R]⟩ ![] hz (constantI ⟨0, ![]⟩ 32 0#32)))
                  (addi idx (broadcastInDim ⟨1, ![R]⟩ ![] hn (constantI ⟨0, ![]⟩ 32 (BitVec.ofNat 32 N)))) idx))
              (broadcastInDim ⟨2, ![R, 1]⟩ ![0, 1] h2
                (broadcastInDim ⟨2, ![1, 1]⟩ ![1] h1 (constantI ⟨1, ![1]⟩ 32 (BitVec.ofNat 32 (N - 1)))))))
          (constantI ⟨0, ![]⟩ 1 1#1) hr hu))
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu _

/-- THE TAKE OF ENTRIES (a table whose gathered slices are single entries; result [R]). As `take_rows_eq`, the row
    mask used as it is. -/
theorem take_vec_eq {R N : Nat} {s : Shape} (hN : N < 2 ^ 31) (idx : IVec ⟨1, ![R]⟩ 32)
    (hidx : ∀ r, (idx r).toNat < N) (d : GatherDims s ⟨2, ![R, 1]⟩ ⟨1, ![R]⟩) (x : s.Idx → α)
    (fill : (⟨1, ![R]⟩ : Shape).Idx → α)
    (hz hn : (⟨0, ![]⟩ : Shape).BroadcastsInDim ⟨1, ![R]⟩ ![])
    (hI : (⟨1, ![R]⟩ : Shape).BroadcastsInDim ⟨2, ![R, 1]⟩ ![0])
    (h0 : (⟨0, ![]⟩ : Shape).BroadcastsInDim ⟨2, ![R, 1]⟩ ![])
    (h1 : (⟨1, ![1]⟩ : Shape).BroadcastsInDim ⟨2, ![1, 1]⟩ ![1])
    (h2 : (⟨2, ![1, 1]⟩ : Shape).BroadcastsInDim ⟨2, ![R, 1]⟩ ![0, 1])
    (hr : (⟨2, ![R, 1]⟩ : Shape).ReducesTo [1] ⟨1, ![R]⟩) (hu : 0 < (⟨0, ![]⟩ : Shape).numel) :
    select
      (Host.reduce IntOp.andi
        (andi
          (cmpi .sge
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![] h0 (constantI ⟨0, ![]⟩ 32 0#32)))
          (cmpi .sle
            (broadcastInDim ⟨2, ![R, 1]⟩ ![0] hI
              (select (cmpi .slt idx (broadcastInDim ⟨1, ![R]⟩ ![] hz (constantI ⟨0, ![]⟩ 32 0#32)))
                (addi idx (broadcastInDim ⟨1, ![R]⟩ ![] hn (constantI ⟨0, ![]⟩ 32 (BitVec.ofNat 32 N)))) idx))
            (broadcastInDim ⟨2, ![R, 1]⟩ ![0, 1] h2
              (broadcastInDim ⟨2, ![1, 1]⟩ ![1] h1 (constantI ⟨1, ![1]⟩ 32 (BitVec.ofNat 32 (N - 1)))))))
        (constantI ⟨0, ![]⟩ 1 1#1) hr hu)
      (Host.gather d x
        (broadcastInDim ⟨2, ![R, 1]⟩ ![0] hI
          (select (cmpi .slt idx (broadcastInDim ⟨1, ![R]⟩ ![] hz (constantI ⟨0, ![]⟩ 32 0#32)))
            (addi idx (broadcastInDim ⟨1, ![R]⟩ ![] hn (constantI ⟨0, ![]⟩ 32 (BitVec.ofNat 32 N)))) idx)))
      fill
    = Host.gather d x (broadcastInDim ⟨2, ![R, 1]⟩ ![0] hI idx) := by
  rw [wrap_id hN idx hidx hz hn]
  apply select_ones
  intro i
  exact mask_ones hN idx hidx hI h0 h1 h2 hr hu i

/-! ## Indices followed by an iota -/

/-- A vector of n words each below B as a natural number, followed by the positions 0, 1, …, m − 1 with m ≤ B, has
    every entry below B. -/
theorem concat_iota_lt {n m T B : Nat} (hmB : m ≤ B) (v : IVec ⟨1, ![n]⟩ 32) (hv : ∀ i, (v i).toNat < B)
    (hc : Shape.Concatenates [(⟨1, ![n]⟩ : Shape), ⟨1, ![m]⟩] ⟨1, ![T]⟩ 0) (j : (⟨1, ![T]⟩ : Shape).Idx) :
    (concatenate ⟨1, ![T]⟩ 0 [⟨⟨1, ![n]⟩, v⟩, ⟨⟨1, ![m]⟩, iotaInDim ⟨1, ![m]⟩ 32 0⟩] hc j).toNat < B := by
  have hT : n + (m + 0) = T := hc.2.2
  have hj : (j 0).val < T := (j 0).isLt
  by_cases hlt : (j 0).val < n
  · rw [concatenate_pair_apply_left (t := ⟨1, ![T]⟩) (s₁ := ⟨1, ![n]⟩) (s₂ := ⟨1, ![m]⟩) (0 : Fin 1) v _ hc j rfl (Shape.Idx.ofFin ⟨(j 0).val, hlt⟩) (fun b => by
      have hb : b = 0 := Subsingleton.elim _ _
      subst hb; rfl)]
    exact hv _
  · have hm' : (j 0).val - n < m := by omega
    rw [concatenate_pair_apply_right (t := ⟨1, ![T]⟩) (s₁ := ⟨1, ![n]⟩) (s₂ := ⟨1, ![m]⟩) (0 : Fin 1) v _ hc j rfl rfl (Shape.Idx.ofFin ⟨(j 0).val - n, hm'⟩)
      (fun b hb => absurd (Subsingleton.elim _ _) hb) (by show (j 0).val - n + n = (j 0).val; omega)]
    show (BitVec.ofNat 32 ((j 0).val - n)).toNat < B
    rw [BitVec.toNat_ofNat]
    exact lt_of_le_of_lt (Nat.mod_le _ _) (by omega)

end Cert.LibTake
-- ==== Proof.HostValue.lean ====
/-
  What the two kernel regions find in the buffers they read, as functions of the launch memory: the features
  and the neighbour sums (the take of the features' rows at the source indices, scatter-added at the
  destination indices), the column totals the first region leaves, the transposed weights and the bias as a
  row; and the range of the source indices that the precondition grants.
-/
import proofs.«419768_j38388417692550_2_alg».proof.Proof.KernelIdeal.Boundaries
import proofs.«419768_j38388417692550_2_alg».proof.Proof.Gen.ReferenceIdeal.Read
import proofs.«419768_j38388417692550_2_alg».proof.Proof.LibTake
import proofs.«419768_j38388417692550_2_alg».proof.Defs
import proofs.«419768_j38388417692550_2_alg».proof.Proof.Gen.Pre_finite_inputs
import Idealize.ShloMosaic.Lib.ReduceAll
import Idealize.ShloMosaic.Lib.StableHlo.Predicate
import Idealize.ShloMosaic.Lib.StableHlo.Run
import Idealize.ShloMosaic.Lib.Pipeline.Value
import Idealize.ShloMosaic.Lib.ValueIdx

set_option maxRecDepth 16384

noncomputable section

namespace Cert.HostValue

open Idealize.ShloMosaic Idealize.ShloMosaic.TcCoe Idealize.ShloMosaic.ValueIdx
open Cert.KernelIdeal Cert.KernelIdeal.Gen Cert.KernelIdeal.Hand

variable (m : (ℓ : Loc nD τ sig) → Buf (Elt Ideal) ℓ)

/-! ## Buffers that reach a region unchanged or through one layout operation -/

/-- The features reach the first region as launched: neither host stretch before it writes them. -/
theorem feat_in (c : Dev nD) : inR0 m c main_arg0 = m ((c : Thread nD τ).loc main_arg0) :=
  (B2_of m c main_arg0 (by decide)).trans <| (B1_of m c main_arg0 (by decide)).trans rfl

/-- The column totals the second region reads are what the first region's last write-back leaves: the
    stretch between the regions does not write them. -/
theorem total_in (c : Dev nD) : inR1 m c main_v4 = (dat0 (F := Ideal) (inR0 m) c).arrAt 1 cfg0.N :=
  (B4_of m c main_v4 (by decide)).trans (B3_arr m c 1)

/-- The weights reach the stretch between the regions as launched. -/
theorem wt_B3 (c : Dev nD) : B3 m c main_arg1 = m ((c : Thread nD τ).loc main_arg1) :=
  (B3_of_ne m c main_arg1 (by decide)).trans <|
    (B2_of m c main_arg1 (by decide)).trans <| (B1_of m c main_arg1 (by decide)).trans rfl

/-- The bias reaches the stretch between the regions as launched. -/
theorem bias_B3 (c : Dev nD) : B3 m c main_arg2 = m ((c : Thread nD τ).loc main_arg2) :=
  (B3_of_ne m c main_arg2 (by decide)).trans <|
    (B2_of m c main_arg2 (by decide)).trans <| (B1_of m c main_arg2 (by decide)).trans rfl

/-- The second region's weight operand is the transpose of the launched weights. -/
theorem wt_in (c : Dev nD) :
    inR1 m c main_v5 = transpose S128x128 [1, 0] (m ((c : Thread nD τ).loc main_arg1)) transposes_S128x128_S128x128_1_0 := by
  rw [← wt_B3 m c]
  show StableHlo.after hostOps1 (B3 m c) (Proc.devRef .tc main_v5) = _
  after_results

/-- Entry (k, q) of the second region's weight operand is entry (q, k) of the launched weights. -/
theorem wt_at (c : Dev nD) (k q : Fin 128) :
    inR1 m c main_v5 (ix2 k q) = m ((c : Thread nD τ).loc main_arg1) (ix2 q k) := by
  rw [wt_in m c]
  exact transpose_apply [1, 0] _ transposes_S128x128_S128x128_1_0 (ix2 k q) (ix2 q k) (fun b => match b with
    | ⟨0, _⟩ => rfl
    | ⟨1, _⟩ => rfl)

/-- The second region's bias operand is the launched bias recast as a one-row matrix. -/
theorem bias_in (c : Dev nD) :
    inR1 m c main_v6 = shapeCast S1x128 (m ((c : Thread nD τ).loc main_arg2)) shapeCasts_S128_S1x128 := by
  rw [← bias_B3 m c]
  show StableHlo.after hostOps1 (B3 m c) (Proc.devRef .tc main_v6) = _
  after_results
  rfl

/-- Entry (0, q) of the second region's bias operand is entry q of the launched bias. -/
theorem bias_at (c : Dev nD) (q : Fin 128) :
    inR1 m c main_v6 (ix2 0 q) = m ((c : Thread nD τ).loc main_arg2) (ix1 q) := by
  rw [bias_in m c]
  refine shapeCast_apply _ shapeCasts_S128_S1x128 (ix2 0 q) (ix1 q) ?_
  rw [Shape.rowMajor_val_one, Shape.rowMajor_val_two]
  show q.val = (0 : Fin 1).val * 128 + q.val
  simp

/-! ## The source indices' range, from the precondition -/

/-- A word that is at least zero as a signed integer is below 2³¹ as a natural number. -/
theorem toNat_lt_of_sge_zero {a : BitVec 32} (h : IntOp.cmpi .sge a 0#32 = 1#1) : a.toNat < 2 ^ 31 := by
  have h' : BitVec.ofBool ((0#32 : BitVec 32).sle a) = 1#1 := by unfold IntOp.cmpi at h; exact h
  rw [StableHlo.Predicate.ofBool_eq_one_iff] at h'
  simp only [BitVec.sle, decide_eq_true_eq] at h'
  have h0 : (0#32 : BitVec 32).toInt = 0 := by decide
  have ht := BitVec.toInt_eq_toNat_cond a
  have hlt := a.isLt
  rw [h0, ht] at h'
  split at h' <;> omega

instance : Subsingleton Cert.Pre_finite_inputs.S_.Idx := ⟨fun a b => funext fun d => d.elim0⟩

/-- The precondition's last two conjuncts say that every source index is at least 0 and below 100000 as a signed
    word; so each is a natural number below 100000. -/
theorem src_in_range [inst : Cert.Pre_finite_inputs.Facts] (h : Cert.Pre_KernelIdeal m) (c : Dev nD)
    (r : Cert.KernelIdeal.S1600000.Idx) : ((m ((c : Thread nD τ).loc main_arg3)) r).toNat < 100000 := by
  have h0 := congrFun (h c) ValueIdx.ix0
  dsimp only [Cert.Pre_finite_inputs.fn, Cert.Pre_finite_inputs.fn_part1] at h0
  obtain ⟨h1, hlt⟩ := IntOp.andi_eq_one.1 h0
  obtain ⟨_, hge⟩ := IntOp.andi_eq_one.1 h1
  have ge := Host.reduce_andi_all _ _ _ _ _ hge r
  have lt := Host.reduce_andi_all _ _ _ _ _ hlt r
  have ge' : IntOp.cmpi .sge ((m ((c : Thread nD τ).loc main_arg3)) r) 0#32 = 1#1 := ge
  have lt' : IntOp.cmpi .slt ((m ((c : Thread nD τ).loc main_arg3)) r) 100000#32 = 1#1 := lt
  have hpos := toNat_lt_of_sge_zero ge'
  exact (StableHlo.Predicate.slt_iff_toNat hpos (by decide)).1 lt'

/-! ## The neighbour sums -/

section Neigh

variable {F : FTy → Type} [FloatOps F] (mF : (ℓ : Loc nD τ sig) → Buf (Elt F) ℓ)

/-- Contents moved to a typed reference's buffer type and back are the contents. -/
theorem ofBuf_toBuf {Val : EltTy → Type} {T : BufTy} (x : StableHlo.TRef sig T) (v : T.Contents Val) :
    x.ofBuf (x.toBuf v) = v := by
  obtain ⟨r, rfl, _, _⟩ := x
  rfl

/-- At the source indices' buffer, whose type is the value's, the move is the identity. -/
theorem ofBuf_arg3 {Val : EltTy → Type} (p1 p2 p3) (v : (main_arg3 : Ref sig .tc).ty.Contents Val) :
    (StableHlo.TRef.of (T := ⟨S1600000, .i32⟩) main_arg3 p1 p2 p3).ofBuf v = v := rfl
/-- The same at the features' buffer. -/
theorem ofBuf_arg0 {Val : EltTy → Type} (p1 p2 p3) (v : (main_arg0 : Ref sig .tc).ty.Contents Val) :
    (StableHlo.TRef.of (T := ⟨S100000x128, .f32⟩) main_arg0 p1 p2 p3).ofBuf v = v := rfl
/-- The same into the take's result buffer. -/
theorem toBuf_v0 {Val : EltTy → Type} (p1 p2 p3) (v : (⟨S1600000x128, .f32⟩ : BufTy).Contents Val) :
    (StableHlo.TRef.of (T := ⟨S1600000x128, .f32⟩) main_v0 p1 p2 p3).toBuf v = v := rfl

/-- The destination indices reach the scatter-add as launched. -/
theorem dst_B1 (c : Dev nD) : B1 mF c main_arg4 = mF ((c : Thread nD τ).loc main_arg4) :=
  (B1_of mF c main_arg4 (by decide)).trans rfl

/-- The first stretch leaves in its result the take composite of the launched features at the launched
    source indices; with every source index a natural number below the table's 100000 rows that composite is
    the plain gather of the rows at those indices. -/
theorem take_B1 (c : Dev nD) (hsrc : ∀ r, ((mF ((c : Thread nD τ).loc main_arg3)) r).toNat < 100000) :
    B1 mF c main_v0
      = Host.gather gather_S100000x128_S1600000x1_S1600000x128_1_0_n_n_0_1_1128 (mF ((c : Thread nD τ).loc main_arg0))
          (broadcastInDim S1600000x1 ![0] bcast_S1600000_S1600000x1_0 (mF ((c : Thread nD τ).loc main_arg3))) := by
  refine Eq.trans ?_ (Cert.LibTake.take_rows_eq (N := 100000) (by decide) (mF ((c : Thread nD τ).loc main_arg3)) hsrc
    gather_S100000x128_S1600000x1_S1600000x128_1_0_n_n_0_1_1128 (mF ((c : Thread nD τ).loc main_arg0))
    (broadcastInDim S1600000x128 ![] bcast_S_S1600000x128 (constant (F := F) S_ .f32 0x7FC00000#32))
    bcast_S_S1600000 bcast_S_S1600000 bcast_S1600000_S1600000x1_0 bcast_S_S1600000x1 bcast_S1_S1x1_1
    bcast_S1x1_S1600000x1_0_1 reducesTo_S1600000x1_S1600000_d1 h_S_ bcast_S1600000_S1600000x128_0)
  show StableHlo.after hostOps0 (B0 mF c) (Proc.devRef .tc main_v0) = _
  after_results_simp
  simp only [ofBuf_toBuf]
  rw [toBuf_v0]
  simp only [ofBuf_arg3, ofBuf_arg0]

/-- The second stretch leaves in its result the scatter-add, into zeros and at the destination indices kept as a
    column, of what the first stretch left. -/
theorem scatter_B2 (c : Dev nD) :
    B2 mF c main_v3
      = Host.scatterAdd scatter_S100000x128_S1600000x1_S1600000x128_1_0_0_1
          (broadcastInDim S100000x128 ![] bcast_S_S100000x128 (constant (F := F) S_ .f32 0x00000000#32))
          (broadcastInDim S1600000x1 ![0] bcast_S1600000_S1600000x1_0 (B1 mF c main_arg4))
          (B1 mF c main_v0) := by
  show StableHlo.after hostOps0_1 (B1 mF c) (Proc.devRef .tc main_v3) = _
  generalize B1 mF c = W
  after_results

end Neigh

/-- The reference wraps the source indices before it gathers; with every index a natural number below 100000
    the wrap returns the index vector. -/
theorem ref_wrap {F : FTy → Type} [FloatOps F] (x3 : (⟨Cert.ReferenceIdeal.S1600000, .i32⟩ : BufTy).Contents (Elt F))
    (h3 : ∀ r, (x3 r).toNat < 100000) : Cert.ReferenceIdeal.Read.val_main_v4 (F := F) x3 = x3 := by
  unfold Cert.ReferenceIdeal.Read.val_main_v4 Cert.ReferenceIdeal.Read.val_main_v1 Cert.ReferenceIdeal.Read.val_main_v3
    Cert.ReferenceIdeal.Read.val_main_v0 Cert.ReferenceIdeal.Read.val_main_v2 Cert.ReferenceIdeal.Read.val_main_c
    Cert.ReferenceIdeal.Read.val_main_c_0
  exact Cert.LibTake.wrap_id (N := 100000) (by decide) x3 h3 _ _

/-- THE NEIGHBOUR SUMS. What the second region reads as its first operand is the reference's neighbour-sum
    array of the launched features, source and destination indices: on both sides the gather of the features'
    rows at the source indices, scatter-added into zeros at the destination indices. -/
theorem neigh_eq (c : Dev nD) (hsrc : ∀ r, ((m ((c : Thread nD τ).loc main_arg3)) r).toNat < 100000) :
    inR1 m c main_v3 = Cert.ReferenceIdeal.Read.val_main_v9 (F := Ideal) (m ((c : Thread nD τ).loc main_arg0))
      (m ((c : Thread nD τ).loc main_arg3)) (m ((c : Thread nD τ).loc main_arg4)) := by
  have e : inR1 m c main_v3 = B2 m c main_v3 :=
    (B4_of m c main_v3 (by decide)).trans (B3_of_ne m c main_v3 (by decide))
  rw [e, scatter_B2, take_B1 m c hsrc, dst_B1]
  unfold Cert.ReferenceIdeal.Read.val_main_v9 Cert.ReferenceIdeal.Read.val_main_v7 Cert.ReferenceIdeal.Read.val_main_v8
    Cert.ReferenceIdeal.Read.val_main_v6 Cert.ReferenceIdeal.Read.val_main_v5 Cert.ReferenceIdeal.Read.val_main_cst
  rw [ref_wrap _ hsrc]
  rfl

end Cert.HostValue

end
-- ==== Proof.Algebraic.lean ====
/-
  The two programs compute the same function.

  At node p and output feature q both results are the layer's value: the row of column totals of the features less
  p's neighbour sums, divided by its floored norm, through the linear layer.  On the kernel's side the totals come
  from the accumulating region, the neighbour sums from the host's take and scatter-add (the take is the plain
  gather because every source index is in range), the transposed weights and the bias row from the host; on the
  reference's side everything is read off its host operations.
-/
import proofs.«419768_j38388417692550_2_alg».proof.Proof.KernelIdeal.MainRun
import proofs.«419768_j38388417692550_2_alg».proof.Proof.RefValue
import proofs.«419768_j38388417692550_2_alg».proof.Proof.FusedValue
import proofs.«419768_j38388417692550_2_alg».proof.Proof.TotalValue
import proofs.«419768_j38388417692550_2_alg».proof.Proof.HostValue

set_option maxRecDepth 16384

noncomputable section

namespace Cert.Algebraic

open Idealize.ShloMosaic Idealize.ShloMosaic.TcCoe Idealize.ShloMosaic.ValueIdx
open Cert.KernelIdeal Cert.KernelIdeal.Gen Cert.KernelIdeal.Hand

/-- The kernel program's result array is the layer's value of the launch arguments, the neighbour sums being the
    reference's own scatter-add term. -/
theorem kernel_value (m : (ℓ : Loc nD τ sig) → Buf (Elt Ideal) ℓ) (c : Dev nD)
    (hsrc : ∀ r, ((m ((c : Thread nD τ).loc main_arg3)) r).toNat < 100000) (p : Fin 100000) (q : Fin 128) :
    (dat1 (F := Ideal) (inR1 m) c).arrAt 4 cfg1.N (ix2 p q)
      = Cert.Spec.layer (m ((c : Thread nD τ).loc main_arg0))
          (Cert.ReferenceIdeal.Read.val_main_v9 (F := Ideal) (m ((c : Thread nD τ).loc main_arg0)) (m ((c : Thread nD τ).loc main_arg3)) (m ((c : Thread nD τ).loc main_arg4)))
          (m ((c : Thread nD τ).loc main_arg1)) (m ((c : Thread nD τ).loc main_arg2)) p q := by
  refine (Cert.FusedValue.fused_arr (inR1 m) c p q).trans ?_
  unfold Cert.Spec.layer
  refine congr (congr (congrArg Cert.Spec.rowOut (funext fun k => ?_)) (funext fun k => ?_)) ?_
  · refine congr (congrArg HSub.hSub ?_) ?_
    · refine (congrFun (Cert.HostValue.total_in m c) (ix2 0 k)).trans ?_
      refine (Cert.TotalValue.total_arr (inR0 m) c k).trans ?_
      exact congrArg (fun x => Cert.Spec.colTotal x k) (Cert.HostValue.feat_in m c)
    · exact congrFun (Cert.HostValue.neigh_eq m c hsrc) (ix2 p k)
  · exact Cert.HostValue.wt_at m c k q
  · exact Cert.HostValue.bias_at m c q

end Cert.Algebraic

end
-- ==== Proof.lean ====
/-
  The certificate's claim: the kernel program at the word level and at the ideal level, and the reference at the ideal
  level, each run to the end without a fault leaving their arguments unchanged; the idealization rewrote nothing; and,
  under the precondition (finite float inputs, every source index a valid row number), the idealized kernel program and
  the idealized reference end with equal results.

  The kernel program's frames come from its run item by item (two host stretches, the column-total region, a host
  stretch, the fused region); the reference's from its run as a line of host operations.  The results agree because
  both are the layer's value of the arguments: column totals less neighbour sums, normalised, through the linear layer.
-/
import proofs.«419768_j38388417692550_2_alg».proof.Defs
import proofs.«419768_j38388417692550_2_alg».proof.Proof.Gen.Kernel
import proofs.«419768_j38388417692550_2_alg».proof.Proof.Gen.KernelIdeal
import proofs.«419768_j38388417692550_2_alg».proof.Proof.Gen.ReferenceIdeal
import proofs.«419768_j38388417692550_2_alg».proof.Proof.Gen.Pre_finite_inputs
import proofs.«419768_j38388417692550_2_alg».proof.Proof.Gen.ReferenceIdeal.Run
import proofs.«419768_j38388417692550_2_alg».proof.Proof.Gen.ReferenceIdeal.Read
import proofs.«419768_j38388417692550_2_alg».proof.Proof.Kernel.MainRun
import proofs.«419768_j38388417692550_2_alg».proof.Proof.KernelIdeal.MainRun
import proofs.«419768_j38388417692550_2_alg».proof.Proof.Algebraic
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

/-- The reference's frame: its run with the result dropped. -/
theorem frame_reference : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Equal results: the kernel program's result array and the reference's result term are the same function. -/
theorem algebraic : @Cert.algebraic_KernelIdeal_ReferenceIdeal Cert.KernelIdeal.Gen.facts Cert.ReferenceIdeal.Gen.facts Cert.Pre_finite_inputs.Gen.facts :=
  fun m g m' g' hpre hagree =>
    ⟨fun c => (Cert.KernelIdeal.Hand.dat1 (F := Ideal) (Cert.KernelIdeal.Hand.inR1 m) c).arrAt 4 Cert.KernelIdeal.cfg1.N,
     Cert.KernelIdeal.Hand.run_value m g,
     (θ_run Cert.ReferenceIdeal.defs _ _).mono (fun _ h c => ⟨(h c).1.trans (by
        rw [Cert.ReferenceIdeal.Read.val_main_v26_eq, (hagree c).1, (hagree c).2.1, (hagree c).2.2.1, (hagree c).2.2.2.1, (hagree c).2.2.2.2]
        funext j
        obtain ⟨p, q, rfl⟩ : ∃ (p : Fin 100000) (q : Fin 128), j = ix2 p q := ⟨j 0, j 1, eq_ix2 j⟩
        rw [Cert.RefValue.ref_eq]
        exact (Cert.Algebraic.kernel_value m c (fun r => Cert.HostValue.src_in_range m hpre c r) p q).symm), (h c).2⟩)
      (Cert.ReferenceIdeal.Value.run (F := Ideal) m' g')⟩

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  frame_reference,
  trivial,
  algebraic⟩

end Cert.Proof

end
